-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S1x128 : Shape := ⟨2, ![1, 128]⟩
abbrev S128 : Shape := ⟨1, ![128]⟩
abbrev S128x1 : Shape := ⟨2, ![128, 1]⟩
abbrev S1x1 : Shape := ⟨2, ![1, 1]⟩

abbrev nBuf : Space → Nat
  | .hbm => 102
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S1600000x1, .f32⟩
  | .hbm, ⟨76, _⟩ => ⟨S1600000x64, .f32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x1, .i32⟩
  | .hbm, ⟨85, _⟩ => ⟨S128x64, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S128, .f32⟩
  | .hbm, ⟨90, _⟩ => ⟨S100000x1, .i32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128x1, .f32⟩
  | .hbm, ⟨96, _⟩ => ⟨S128x64, .f32⟩
  | .hbm, ⟨97, _⟩ => ⟨S128x64, .f32⟩
  | .hbm, ⟨98, _⟩ => ⟨S128x1, .f32⟩
  | .hbm, ⟨99, _⟩ => ⟨S1x1, .f32⟩
  | .hbm, ⟨100, _⟩ => ⟨S128x1, .f32⟩
  | .hbm, ⟨101, _⟩ => ⟨S128x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x1, .i32⟩
  | .local _ .vmem, ⟨31, _⟩ => ⟨S10000x1, .i32⟩
  | .local _ .vmem, ⟨32, _⟩ => ⟨S128x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  iota_S1x128_d1_w32 : S1x128.Iotas .tc 32 [1]
  broadcasts_S10000x1_S10000x128 : S10000x1.Broadcasts S10000x128
  broadcasts_S1x128_S10000x128 : S1x128.Broadcasts S10000x128
  natLt_1_32 : 1 < 32
  shapeCasts_S128x64_S128x64 : S128x64.ShapeCasts S128x64
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x128_S10000x64_S128x64_0_0_1_1_n_n_wf : DotDims.WF S10000x128 S10000x64 S128x64 [0] [0] [1] [1] [] []
  scatter_S128_S100000x1_S100000_n_0_0_1_wf : ScatterDims.WF S128 S100000x1 S100000 [] [0] [0] 1
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S128x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S128 : Shape := ⟨1, ![128]⟩
abbrev S128x1 : Shape := ⟨2, ![128, 1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S100000, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x1, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S128x64, .f32⟩
  | 5 => ⟨S100000x1, .i32⟩
  | 6 => ⟨S128x64, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S128, .f32⟩
  | 15 => ⟨S128, .f32⟩
  | 16 => ⟨S128x1, .f32⟩
  | 17 => ⟨S128x64, .f32⟩
  | 18 => ⟨S128x64, .f32⟩
  | 19 => ⟨S128x1, .f32⟩
  | 20 => ⟨S1x1, .f32⟩
  | 21 => ⟨S128x1, .f32⟩
  | 22 => ⟨S128x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call1_cst : Ref sig .tc := ⟨.hbm, 128, rfl⟩
abbrev main_call1_v0 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_cst_22 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_23 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x1_S128x1_1_0_0_1_n_n_wf : DotDims.WF S128x64 S64x1 S128x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.Spec.lean ====
/-
  The mathematics both programs compute, layer by layer, as functions of whole arrays over the extended reals.
  A graph-convolution layer is: project the node features (a matrix product), aggregate the projected rows along the
  edges (shared host code on both sides, never opened here), then add the self-loop term `h * (1 / deg)`, the bias, and
  clamp at zero. The read-out sums the node rows of each graph. Each function below is ONE such stage, index by index.
-/
import Idealize.ShloMosaic.PureOps.Ideal
import Idealize.ShloMosaic.Lib.ValueIdx

noncomputable section

namespace Cert.Spec

open Idealize.ShloMosaic Idealize.ShloMosaic.ValueIdx

/-- The zero every accumulator and clamp starts from: the word `0x00000000` read as a float. -/
abbrev z : EReal := Ideal.ofBits .f32 0x00000000#32

/-- Node features `[100000, 128]` times weights `[128, 64]`: entry `(n, j)` is the sum over `k` of `x (n, k) * w (k, j)`. -/
def mm128 (x : (⟨2, ![100000, 128]⟩ : Shape).Idx → EReal) (w : (⟨2, ![128, 64]⟩ : Shape).Idx → EReal) :
    (⟨2, ![100000, 64]⟩ : Shape).Idx → EReal :=
  fun i => ∑ k : Fin 128, x (ix2 (i 0) k) * w (ix2 k (i 1))

/-- Hidden features `[100000, 64]` times weights `[64, 64]`. -/
def mm64 (x : (⟨2, ![100000, 64]⟩ : Shape).Idx → EReal) (w : (⟨2, ![64, 64]⟩ : Shape).Idx → EReal) :
    (⟨2, ![100000, 64]⟩ : Shape).Idx → EReal :=
  fun i => ∑ k : Fin 64, x (ix2 (i 0) k) * w (ix2 k (i 1))

/-- The layer's epilogue: aggregated messages `a`, plus the node's own projected row `h` scaled by its reciprocal
    degree `r n`, plus the bias `b j`, clamped below at zero. -/
def fuse (a h : (⟨2, ![100000, 64]⟩ : Shape).Idx → EReal) (r : (⟨1, ![100000]⟩ : Shape).Idx → EReal)
    (b : (⟨1, ![64]⟩ : Shape).Idx → EReal) : (⟨2, ![100000, 64]⟩ : Shape).Idx → EReal :=
  fun i => max ((a i + h i * r (ix1 (i 0))) + b (ix1 (i 1))) z

/-- The read-out: row `g` is the sum of the node rows `h (n, ·)` over the nodes whose graph id `bt n` is the word `g`;
    a node whose id is no graph's (outside `0 … 127`) is in no row. -/
def pool (h : (⟨2, ![100000, 64]⟩ : Shape).Idx → EReal) (bt : (⟨1, ![100000]⟩ : Shape).Idx → BitVec 32) :
    (⟨2, ![128, 64]⟩ : Shape).Idx → EReal :=
  fun i => ∑ n : Fin 100000, if bt (ix1 n) = BitVec.ofNat 32 (i 0).val then h (ix2 n (i 1)) else 0

end Cert.Spec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.MatmulK.lean ====
/-
  The kernel's two matrix products, each as the array its region leaves. A product runs over ten grid points; point `t`
  loads rows `10000 t … 10000 t + 9999` of the left operand and the whole right operand, casts both to bf16 (the
  identity on extended reals), multiplies into a zero accumulator and writes the block back as rows
  `10000 t … 10000 t + 9999` of the result. So each written block is the block of ONE whole-array function, the
  product of the two arrays, and the ten blocks tile the result.
-/
import proofs.«401749_j10557029614291_1_alg».proof.Proof.Gen.KernelIdeal.Frame
import proofs.«401749_j10557029614291_1_alg».proof.Proof.Spec
import Idealize.ShloMosaic.Lib.ValueIdx
import Idealize.ShloMosaic.Lib.Pipeline.Value
import Idealize.ShloMosaic.PureOps.Ideal.Laws

noncomputable section
namespace Cert.KernelIdeal.MatmulK
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off00 : (![0, 0] : Fin 2 → Nat) = fun _ => 0 := funext fun a => by fin_cases a <;> rfl

/-! ## The first product: region 0, `[100000, 128] x [128, 64]` in ten row blocks of 10000 -/

/-- The contraction of the first product runs over the left operand's axis 1 and the right operand's axis 0: the
    four coordinates of the two operand indices at an output index and a contraction index. -/
theorem lhs128_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs128_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs128_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs128_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's payload of the first product at an index: the casts to bf16 are the identity on extended reals and the
    accumulator is the zero splat, so entry `(r, j)` is the sum over `k` of `x0 (r, k) * x1 (k, j)`. -/
theorem pay128_apply (x0 : FVec Ideal S10000x128 .f32) (x1 : FVec Ideal S128x64 .f32) (r : Fin 10000) (j : Fin 64) :
    k0_pay1 (F := Ideal) x0 x1 (ix2 r j) = ∑ k : Fin 128, x0 (ix2 r k) * x1 (ix2 k j) := by
  unfold k0_pay1
  refine (Ideal.matmul_constant_zero_apply dot_S10000x128_S128x64_S10000x64_1_0_0_1_n_n none _ _ (ix2 r j)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 r j) ((ValueIdx.contrEquiv1 dot_S10000x128_S128x64_S10000x64_1_0_0_1_n_n 128 rfl rfl).symm k) = ix2 r k := funext fun a => Fin.ext (by
    match a with
    | ⟨0, _⟩ => exact lhs128_0 _ _
    | ⟨1, _⟩ => exact (lhs128_1 _ _).trans hk)
  have er : dot_S10000x128_S128x64_S10000x64_1_0_0_1_n_n.rhsIdx (ix2 r j) ((ValueIdx.contrEquiv1 dot_S10000x128_S128x64_S10000x64_1_0_0_1_n_n 128 rfl rfl).symm k) = ix2 k j := funext fun a => Fin.ext (by
    match a with
    | ⟨0, _⟩ => exact (rhs128_0 _ _).trans hk
    | ⟨1, _⟩ => exact rhs128_1 _ _)
  rw [el, er]
  rfl

/-- The printed index maps of the first product's three windows, decided over the ten grid points: the row blocks of
    the left operand and of the result move with the point, the right operand is one whole block. -/
theorem idx128 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Whatever blocks the body loads, if the left block's row `r` is the array's row `n` and the right block is the
    whole weight array, the payload at `(r, j)` is the product array at `(n, j)`. -/
theorem pay128_eq_mm (x0 : FVec Ideal S10000x128 .f32) (x1 : FVec Ideal S128x64 .f32)
    (X : FVec Ideal S100000x128 .f32) (W : FVec Ideal S128x64 .f32) (r : Fin 10000) (j : Fin 64) (n : Fin 100000)
    (h0 : ∀ k : Fin 128, x0 (ix2 r k) = X (ix2 n k)) (h1 : ∀ (k : Fin 128) (j : Fin 64), x1 (ix2 k j) = W (ix2 k j)) :
    k0_pay1 (F := Ideal) x0 x1 (ix2 r j) = Cert.Spec.mm128 X W (ix2 n j) := by
  rw [pay128_apply]
  unfold Cert.Spec.mm128
  exact Finset.sum_congr rfl fun k _ => by rw [h0 k, h1 k j]

/-- Row `r` of the left operand's block at point `t` is row `10000 t + r` of the array. -/
theorem lhs128_blk (c : Dev nD) (t : Fin cfg0.N) (r : Fin 10000) (k : Fin 128) (n : Fin 100000) (hn : n.val = t.val * 10000 + r.val) :
    (iblk0 (F := Ideal) V c 0 t : Vec Ideal S10000x128 .f32) (ix2 r k) = (V c main_arg0 : S100000x128.Idx → EReal) (ix2 n k) := by
  obtain ⟨e0, e1, e2, e3, e4, e5⟩ := idx128 t
  unfold iblk0
  rw [View.read_apply]
  show V c main_arg0 (((cfg0.win 0).blk t).view.emb (ix2 r k)) = V c main_arg0 (ix2 n k)
  refine congrArg (V c main_arg0) (funext fun a => Fin.ext ?_)
  match a with
  | ⟨0, _⟩ => show win0_0.index t (0 : Fin 2) * 10000 + 1 * r.val = n.val; rw [e0, hn]; omega
  | ⟨1, _⟩ => show win0_0.index t (1 : Fin 2) * 128 + 1 * k.val = k.val; rw [e1]; omega

/-- The right operand's block at every point is the whole weight array. -/
theorem rhs128_blk (c : Dev nD) (t : Fin cfg0.N) (k : Fin 128) (j : Fin 64) :
    (iblk0 (F := Ideal) V c 1 t : Vec Ideal S128x64 .f32) (ix2 k j) = (V c main_arg3 : S128x64.Idx → EReal) (ix2 k j) := by
  obtain ⟨e0, e1, e2, e3, e4, e5⟩ := idx128 t
  unfold iblk0
  rw [View.read_apply]
  show V c main_arg3 (((cfg0.win 1).blk t).view.emb (ix2 k j)) = V c main_arg3 (ix2 k j)
  refine congrArg (V c main_arg3) (funext fun a => Fin.ext ?_)
  match a with
  | ⟨0, _⟩ => show win0_1.index t (0 : Fin 2) * 128 + 1 * k.val = k.val; rw [e2]; omega
  | ⟨1, _⟩ => show win0_1.index t (1 : Fin 2) * 64 + 1 * j.val = j.val; rw [e3]; omega

/-- Where an index of the result's block at point `t` sits in the array: row `10000 t + r`, the same column. -/
theorem out128_emb (t : Fin cfg0.N) (y : ((cfg0.win 2).xblock (grid0.coords t)).Idx)
    (hn : t.val * 10000 + (y 0).val < 100000) (hj : (y 1).val < 64) :
    ((cfg0.win 2).blk t).view.emb y = ix2 (⟨t.val * 10000 + (y 0).val, hn⟩ : Fin 100000) (⟨(y 1).val, hj⟩ : Fin 64) := by
  obtain ⟨e0, e1, e2, e3, e4, e5⟩ := idx128 t
  refine funext fun a => Fin.ext ?_
  match a with
  | ⟨0, _⟩ => show win0_2.index t (0 : Fin 2) * 10000 + 1 * (y 0).val = t.val * 10000 + (y 0).val; rw [e4]; omega
  | ⟨1, _⟩ => show win0_2.index t (1 : Fin 2) * 64 + 1 * (y 1).val = (y 1).val; rw [e5]; omega

/-- What point `t` writes back of the first product is block `t` of the product of the two arrays the region reads. -/
theorem flushed128_eq (c : Dev nD) (t : Fin cfg0.N) :
    (dat0 (F := Ideal) V c).flushed 2 t = ((cfg0.win 2).blk t).view.read (Elt Ideal) (Cert.Spec.mm128 (V c main_arg0) (V c main_arg3)) := by
  show (cfg0.win 2).cut (grid0.coords t) ((dat0 (F := Ideal) V c).after 2 t) = _
  rw [after0_2]
  unfold out0_2
  rw [View.canon_unit_zero off00]
  simp only [View.ld_unit_zero (S := S10000x128) off00, View.ld_unit_zero (S := S128x64) off00]
  funext y
  have hr : (y 0).val < 10000 := (y 0).isLt
  have hj : (y 1).val < 64 := (y 1).isLt
  have hn : t.val * 10000 + (y 0).val < 100000 := by
    have ht : t.val < 10 := lt_of_lt_of_eq t.isLt N_0
    omega
  have hy : (win0 2).xinj (grid0.coords t) y = ix2 (⟨(y 0).val, hr⟩ : Fin 10000) (⟨(y 1).val, hj⟩ : Fin 64) :=
    funext fun a => by match a with | ⟨0, _⟩ => rfl | ⟨1, _⟩ => rfl
  have hi : ((cfg0.win 2).blk t).view.emb y = ix2 (⟨t.val * 10000 + (y 0).val, hn⟩ : Fin 100000) (⟨(y 1).val, hj⟩ : Fin 64) :=
    out128_emb t y hn hj
  show k0_pay1 (F := Ideal) (iblk0 V c 0 t) (iblk0 V c 1 t) ((win0 2).xinj (grid0.coords t) y)
    = Cert.Spec.mm128 (V c main_arg0) (V c main_arg3) (((cfg0.win 2).blk t).view.emb y)
  rw [hy, hi]
  exact pay128_eq_mm (iblk0 V c 0 t) (iblk0 V c 1 t) (V c main_arg0) (V c main_arg3) ⟨(y 0).val, hr⟩ ⟨(y 1).val, hj⟩ ⟨t.val * 10000 + (y 0).val, hn⟩
    (fun k => lhs128_blk V c t ⟨(y 0).val, hr⟩ k ⟨t.val * 10000 + (y 0).val, hn⟩ rfl) (fun k j => rhs128_blk V c t k j)

/-- An index of the result array is in point `t`'s block iff each coordinate is in the block's range on its axis. -/
theorem mem_blk128 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the result array is in the block of the point `row / 10000`, which writes back. -/
theorem cover128 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < cfg0.N := lt_of_lt_of_eq (by omega) N_0.symm
  obtain ⟨e0, e1, e2, e3, e4, e5⟩ := idx128 ⟨(i 0).val / 10000, ht⟩
  have q0 : win0_2.index ⟨(i 0).val / 10000, ht⟩ (0 : Fin 2) = (i 0).val / 10000 := e4
  refine ⟨⟨(i 0).val / 10000, ht⟩, flush0_2 _, ?_⟩
  rw [mem_blk128]
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; rw [q0]; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; rw [e5]; omega

/-- The array the first product's region leaves: the product of the two arrays it reads. -/
theorem arr0 (c : Dev nD) :
    (dat0 (F := Ideal) V c).arrAt 2 cfg0.N = Cert.Spec.mm128 (V c main_arg0) (V c main_arg3) :=
  (dat0 (F := Ideal) V c).arrAt_eq_of_cover 2 (Cert.Spec.mm128 (V c main_arg0) (V c main_arg3))
    (fun t _ => flushed128_eq V c t) cover128

/-! ## The second product: region 2, `[100000, 64] x [64, 64]` in ten row blocks of 10000 -/

/-- The contraction of the second product runs over the left operand's axis 1 and the right operand's axis 0: the
    four coordinates of the two operand indices at an output index and a contraction index. -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload of the second product at an index: the casts to bf16 are the identity on extended reals and the
    accumulator is the zero splat, so entry `(r, j)` is the sum over `k` of `x0 (r, k) * x1 (k, j)`. -/
theorem pay64_apply (x0 : FVec Ideal S10000x64 .f32) (x1 : FVec Ideal S64x64 .f32) (r : Fin 10000) (j : Fin 64) :
    k2_pay1 (F := Ideal) x0 x1 (ix2 r j) = ∑ k : Fin 64, x0 (ix2 r k) * x1 (ix2 k j) := by
  unfold k2_pay1
  rw [shapeCast_self]
  refine (Ideal.matmul_constant_zero_apply dot_S10000x64_S64x64_S10000x64_1_0_0_1_n_n none _ _ (ix2 r j)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (rhs64_0 _ _).trans hk
    | ⟨1, _⟩ => exact rhs64_1 _ _)
  rw [el, er]
  rfl

/-- The printed index maps of the second product's three windows, decided over the ten grid points: the row blocks of
    the left operand and of the result move with the point, the right operand is one whole block. -/
theorem idx64 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Whatever blocks the body loads, if the left block's row `r` is the array's row `n` and the right block is the
    whole weight array, the payload at `(r, j)` is the product array at `(n, j)`. -/
theorem pay64_eq_mm (x0 : FVec Ideal S10000x64 .f32) (x1 : FVec Ideal S64x64 .f32)
    (X : FVec Ideal S100000x64 .f32) (W : FVec Ideal S64x64 .f32) (r : Fin 10000) (j : Fin 64) (n : Fin 100000)
    (h0 : ∀ k : Fin 64, x0 (ix2 r k) = X (ix2 n k)) (h1 : ∀ (k : Fin 64) (j : Fin 64), x1 (ix2 k j) = W (ix2 k j)) :
    k2_pay1 (F := Ideal) x0 x1 (ix2 r j) = Cert.Spec.mm64 X W (ix2 n j) := by
  rw [pay64_apply]
  unfold Cert.Spec.mm64
  exact Finset.sum_congr rfl fun k _ => by rw [h0 k, h1 k j]

/-- Row `r` of the left operand's block at point `t` is row `10000 t + r` of the array. -/
theorem lhs64_blk (c : Dev nD) (t : Fin cfg2.N) (r : Fin 10000) (k : Fin 64) (n : Fin 100000) (hn : n.val = t.val * 10000 + r.val) :
    (iblk2 (F := Ideal) V c 0 t : Vec Ideal S10000x64 .f32) (ix2 r k) = (V c main_v44 : S100000x64.Idx → EReal) (ix2 n k) := by
  obtain ⟨e0, e1, e2, e3, e4, e5⟩ := idx64 t
  unfold iblk2
  rw [View.read_apply]
  show V c main_v44 (((cfg2.win 0).blk t).view.emb (ix2 r k)) = V c main_v44 (ix2 n k)
  refine congrArg (V c main_v44) (funext fun a => Fin.ext ?_)
  match a with
  | ⟨0, _⟩ => show win2_0.index t (0 : Fin 2) * 10000 + 1 * r.val = n.val; rw [e0, hn]; omega
  | ⟨1, _⟩ => show win2_0.index t (1 : Fin 2) * 64 + 1 * k.val = k.val; rw [e1]; omega

/-- The right operand's block at every point is the whole weight array. -/
theorem rhs64_blk (c : Dev nD) (t : Fin cfg2.N) (k : Fin 64) (j : Fin 64) :
    (iblk2 (F := Ideal) V c 1 t : Vec Ideal S64x64 .f32) (ix2 k j) = (V c main_arg5 : S64x64.Idx → EReal) (ix2 k j) := by
  obtain ⟨e0, e1, e2, e3, e4, e5⟩ := idx64 t
  unfold iblk2
  rw [View.read_apply]
  show V c main_arg5 (((cfg2.win 1).blk t).view.emb (ix2 k j)) = V c main_arg5 (ix2 k j)
  refine congrArg (V c main_arg5) (funext fun a => Fin.ext ?_)
  match a with
  | ⟨0, _⟩ => show win2_1.index t (0 : Fin 2) * 64 + 1 * k.val = k.val; rw [e2]; omega
  | ⟨1, _⟩ => show win2_1.index t (1 : Fin 2) * 64 + 1 * j.val = j.val; rw [e3]; omega

/-- Where an index of the result's block at point `t` sits in the array: row `10000 t + r`, the same column. -/
theorem out64_emb (t : Fin cfg2.N) (y : ((cfg2.win 2).xblock (grid2.coords t)).Idx)
    (hn : t.val * 10000 + (y 0).val < 100000) (hj : (y 1).val < 64) :
    ((cfg2.win 2).blk t).view.emb y = ix2 (⟨t.val * 10000 + (y 0).val, hn⟩ : Fin 100000) (⟨(y 1).val, hj⟩ : Fin 64) := by
  obtain ⟨e0, e1, e2, e3, e4, e5⟩ := idx64 t
  refine funext fun a => Fin.ext ?_
  match a with
  | ⟨0, _⟩ => show win2_2.index t (0 : Fin 2) * 10000 + 1 * (y 0).val = t.val * 10000 + (y 0).val; rw [e4]; omega
  | ⟨1, _⟩ => show win2_2.index t (1 : Fin 2) * 64 + 1 * (y 1).val = (y 1).val; rw [e5]; omega

/-- What point `t` writes back of the second product is block `t` of the product of the two arrays the region reads. -/
theorem flushed64_eq (c : Dev nD) (t : Fin cfg2.N) :
    (dat2 (F := Ideal) V c).flushed 2 t = ((cfg2.win 2).blk t).view.read (Elt Ideal) (Cert.Spec.mm64 (V c main_v44) (V c main_arg5)) := by
  show (cfg2.win 2).cut (grid2.coords t) ((dat2 (F := Ideal) V c).after 2 t) = _
  rw [after2_2]
  unfold out2_2
  rw [View.canon_unit_zero off00]
  simp only [View.ld_unit_zero (S := S10000x64) off00, View.ld_unit_zero (S := S64x64) off00]
  funext y
  have hr : (y 0).val < 10000 := (y 0).isLt
  have hj : (y 1).val < 64 := (y 1).isLt
  have hn : t.val * 10000 + (y 0).val < 100000 := by
    have ht : t.val < 10 := lt_of_lt_of_eq t.isLt N_2
    omega
  have hy : (win2 2).xinj (grid2.coords t) y = ix2 (⟨(y 0).val, hr⟩ : Fin 10000) (⟨(y 1).val, hj⟩ : Fin 64) :=
    funext fun a => by match a with | ⟨0, _⟩ => rfl | ⟨1, _⟩ => rfl
  have hi : ((cfg2.win 2).blk t).view.emb y = ix2 (⟨t.val * 10000 + (y 0).val, hn⟩ : Fin 100000) (⟨(y 1).val, hj⟩ : Fin 64) :=
    out64_emb t y hn hj
  show k2_pay1 (F := Ideal) (iblk2 V c 0 t) (iblk2 V c 1 t) ((win2 2).xinj (grid2.coords t) y)
    = Cert.Spec.mm64 (V c main_v44) (V c main_arg5) (((cfg2.win 2).blk t).view.emb y)
  rw [hy, hi]
  exact pay64_eq_mm (iblk2 V c 0 t) (iblk2 V c 1 t) (V c main_v44) (V c main_arg5) ⟨(y 0).val, hr⟩ ⟨(y 1).val, hj⟩ ⟨t.val * 10000 + (y 0).val, hn⟩
    (fun k => lhs64_blk V c t ⟨(y 0).val, hr⟩ k ⟨t.val * 10000 + (y 0).val, hn⟩ rfl) (fun k j => rhs64_blk V c t k j)

/-- An index of the result array is in point `t`'s block iff each coordinate is in the block's range on its axis. -/
theorem mem_blk64 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Every index of the result array is in the block of the point `row / 10000`, which writes back. -/
theorem cover64 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < cfg2.N := lt_of_lt_of_eq (by omega) N_2.symm
  obtain ⟨e0, e1, e2, e3, e4, e5⟩ := idx64 ⟨(i 0).val / 10000, ht⟩
  have q0 : win2_2.index ⟨(i 0).val / 10000, ht⟩ (0 : Fin 2) = (i 0).val / 10000 := e4
  refine ⟨⟨(i 0).val / 10000, ht⟩, flush2_2 _, ?_⟩
  rw [mem_blk64]
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; rw [q0]; omega
  | ⟨1, _⟩ => show win2_2.index ⟨(i 0).val / 10000, ht⟩ (1 : Fin 2) * 64 ≤ (i 1).val ∧ (i 1).val < win2_2.index ⟨(i 0).val / 10000, ht⟩ (1 : Fin 2) * 64 + 64; rw [e5]; omega

/-- The array the second product's region leaves: the product of the two arrays it reads. -/
theorem arr2 (c : Dev nD) :
    (dat2 (F := Ideal) V c).arrAt 2 cfg2.N = Cert.Spec.mm64 (V c main_v44) (V c main_arg5) :=
  (dat2 (F := Ideal) V c).arrAt_eq_of_cover 2 (Cert.Spec.mm64 (V c main_v44) (V c main_arg5))
    (fun t _ => flushed64_eq V c t) cover64

end Cert.KernelIdeal.MatmulK
end
-- ==== Proof.MatmulR.lean ====
/-
  The reference's two matrix products, read index by index: a `dot_general` that contracts the left operand's axis 1
  with the right operand's axis 0 is, over the extended reals, the sum over `k` of `x (n, k) * w (k, j)`.
-/
import proofs.«401749_j10557029614291_1_alg».proof.Proof.Gen.ReferenceIdeal.Read
import proofs.«401749_j10557029614291_1_alg».proof.Proof.Spec
import Idealize.ShloMosaic.Lib.ValueIdx
import Idealize.ShloMosaic.PureOps.Ideal.Laws

noncomputable section
namespace Cert.ReferenceIdeal.MatmulR
open Cert.ReferenceIdeal Cert.ReferenceIdeal.Gen Idealize.ShloMosaic Idealize.ShloMosaic.TcCoe Idealize.SL.Sem Idealize.ShloMosaic.StableHlo
open Idealize.ShloMosaic.ValueIdx

/-- The product `[100000, 128] x [128, 64]`: the generated reading of the operation at an index, with the two
    operand indices written from their coordinates. -/
theorem dot128_eq (x : FVec Ideal S100000x128 .f32) (w : FVec Ideal S128x64 .f32) :
    Host.dotGeneral (F := Ideal) dot_S100000x128_S128x64_S100000x64_1_0_0_1_n_n none x w = Cert.Spec.mm128 x w := by
  funext i
  refine (Read.val_main_v4_apply x w i).trans ?_
  unfold Cert.Spec.mm128
  refine Finset.sum_congr rfl fun k _ => ?_
  have el : Read.lidx_main_v4 i k = ix2 (i 0) k := funext fun a => Fin.ext (by
    match a with
    | ⟨0, _⟩ => rfl
    | ⟨1, _⟩ => rfl)
  have er : Read.ridx_main_v4 i k = ix2 k (i 1) := funext fun a => Fin.ext (by
    match a with
    | ⟨0, _⟩ => rfl
    | ⟨1, _⟩ => rfl)
  rw [el, er]
  rfl

/-- The contracted coordinate of the left operand of the product `[100000, 64] x [64, 64]` is the summation index;
    its free coordinate is the result's row. -/
theorem lhs64_0 (i : S100000x64.Idx) (q : dot_S100000x64_S64x64_S100000x64_1_0_0_1_n_n.contr.Idx) :
    (dot_S100000x64_S64x64_S100000x64_1_0_0_1_n_n.lhsIdx i q 0).val = (i 0).val := Read.lhs_main_v50_0 i q
theorem lhs64_1 (i : S100000x64.Idx) (q : dot_S100000x64_S64x64_S100000x64_1_0_0_1_n_n.contr.Idx) :
    (dot_S100000x64_S64x64_S100000x64_1_0_0_1_n_n.lhsIdx i q 1).val = (q ⟨0, by decide⟩).val := Read.lhs_main_v50_1 i q
theorem rhs64_0 (i : S100000x64.Idx) (q : dot_S100000x64_S64x64_S100000x64_1_0_0_1_n_n.contr.Idx) :
    (dot_S100000x64_S64x64_S100000x64_1_0_0_1_n_n.rhsIdx i q 0).val = (q ⟨0, by decide⟩).val := Read.rhs_main_v50_0 i q
theorem rhs64_1 (i : S100000x64.Idx) (q : dot_S100000x64_S64x64_S100000x64_1_0_0_1_n_n.contr.Idx) :
    (dot_S100000x64_S64x64_S100000x64_1_0_0_1_n_n.rhsIdx i q 1).val = (i 1).val := Read.rhs_main_v50_1 i q

/-- The product `[100000, 64] x [64, 64]` over a free left operand: the sum over the one contracted axis, reindexed by
    its coordinate `k : Fin 64`. -/
theorem dot64_eq (x : FVec Ideal S100000x64 .f32) (w : FVec Ideal S64x64 .f32) :
    Host.dotGeneral (F := Ideal) dot_S100000x64_S64x64_S100000x64_1_0_0_1_n_n none x w = Cert.Spec.mm64 x w := by
  funext i
  unfold Cert.Spec.mm64
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) := funext fun a => Fin.ext (by
    match a with
    | ⟨0, _⟩ => exact (rhs64_0 _ _).trans hk
    | ⟨1, _⟩ => exact rhs64_1 _ _)
  rw [el, er]
  rfl

end Cert.ReferenceIdeal.MatmulR

end
-- ==== Proof.FuseK.lean ====
/-
  The layer epilogue on the blocked side. Each of the ten grid points holds rows `10000 t … 10000 t + 9999` of the
  aggregate, of the projected features and of the reciprocal-degree column, and the whole bias row; it writes back the
  same rows of `max (agg + h * (1 / deg) + b) 0`. The ten row blocks tile the output, so the array the region leaves is
  the epilogue of the whole arrays, index by index. The two layers' regions have the same shapes and the same body.
-/
import proofs.«401749_j10557029614291_1_alg».proof.Proof.Gen.KernelIdeal.Frame
import proofs.«401749_j10557029614291_1_alg».proof.Proof.Spec
import proofs.«401749_j10557029614291_1_alg».proof.Proof.LibKeepdims
import Idealize.ShloMosaic.Lib.ValueIdx
import Idealize.ShloMosaic.Lib.ValueLayout
import Idealize.ShloMosaic.Lib.Pipeline.Value

noncomputable section
namespace Cert.KernelIdeal.FuseK
open Cert.KernelIdeal Cert.KernelIdeal.Gen Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

theorem hz : (![0, 0] : Fin 2 → Nat) = fun _ => 0 := funext fun a => by fin_cases a <;> rfl

/-! ## The first layer's epilogue: region 1 -/

/-- The body's value at row `p`, lane `q` of a block: the aggregate plus the projected row scaled by the column entry of
    row `p`, plus the row entry of lane `q`, clamped below at zero. -/
theorem pay1_apply (x0 x1 : Vec Ideal S10000x64 .f32) (x2 : Vec Ideal S10000x1 .f32) (x3 : Vec Ideal S1x64 .f32)
    (p : Fin 10000) (q : Fin 64) :
    k1_pay1 x0 x1 x2 x3 (ix2 p q)
      = max ((x0 (ix2 p q) + x1 (ix2 p q) * x2 (ix2 p (0 : Fin 1))) + x3 (ix2 (0 : Fin 1) q)) Cert.Spec.z := by
  unfold k1_pay1
  rw [maximumf_apply, addf_apply, addf_apply, mulf_apply, broadcast_apply]
  rw [shapeCast_self, shapeCast_self, shapeCast_self, shapeCast_self]
  rw [Keepdims.broadcastTo_a1_ab_apply, broadcastTo_1b_ab_apply]
  rfl

/-- The same value, with each block entry named by the whole-array entry it is. -/
theorem point1_eq (x0 x1 : Vec Ideal S10000x64 .f32) (x2 : Vec Ideal S10000x1 .f32) (x3 : Vec Ideal S1x64 .f32)
    (a h : (⟨2, ![100000, 64]⟩ : Shape).Idx → EReal) (r : (⟨1, ![100000]⟩ : Shape).Idx → EReal)
    (b : (⟨1, ![64]⟩ : Shape).Idx → EReal) (p : Fin 10000) (q : Fin 64) (n : Fin 100000)
    (h0 : x0 (ix2 p q) = a (ix2 n q)) (h1 : x1 (ix2 p q) = h (ix2 n q))
    (h2 : x2 (ix2 p (0 : Fin 1)) = r (ix1 n)) (h3 : x3 (ix2 (0 : Fin 1) q) = b (ix1 q)) :
    k1_pay1 x0 x1 x2 x3 (ix2 p q) = Cert.Spec.fuse a h r b (ix2 n q) := by
  rw [pay1_apply, h0, h1, h2, h3]
  rfl

/-- The windows' index maps over the grid: at point `t` the row-blocked windows are at block `(t, 0)`, the bias at `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the epilogue of the whole arrays. -/
theorem flushed1_eq (c : Dev nD) (r : (⟨1, ![100000]⟩ : Shape).Idx → EReal) (b : (⟨1, ![64]⟩ : Shape).Idx → EReal)
    (hr : ∀ n : Fin 100000, V c main_v12 (ix2 n (0 : Fin 1)) = r (ix1 n))
    (hb : ∀ j : Fin 64, V c main_v43 (ix2 (0 : Fin 1) j) = b (ix1 j)) (t : Fin cfg1.N) :
    (dat1 (F := Ideal) V c).flushed 4 t
      = ((cfg1.win 4).blk t).view.read (Elt Ideal) (Cert.Spec.fuse (V c main_v42) (V c main_v29) r b) := by
  show (cfg1.win 4).cut (grid1.coords t) ((dat1 (F := Ideal) V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts1 t
  have ht : t.val < 10 := lt_of_lt_of_eq t.isLt N_1
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hq : q.val < 64 := q.isLt
  have hn : t.val * 10000 + p.val < 100000 := by omega
  show k1_pay1 (iblk1 V c 0 t) (iblk1 V c 1 t) (iblk1 V c 2 t) (iblk1 V c 3 t) (ix2 p q)
    = Cert.Spec.fuse (V c main_v42) (V c main_v29) r b (((cfg1.win 4).blk t).view.emb (ix2 p q))
  have o4 : ((cfg1.win 4).blk t).view.emb (ix2 p q) = ix2 (⟨t.val * 10000 + p.val, hn⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  refine (point1_eq _ _ _ _ (V c main_v42) (V c main_v29) r b p q ⟨t.val * 10000 + p.val, hn⟩ ?_ ?_ ?_ ?_).trans
    (congrArg (Cert.Spec.fuse (V c main_v42) (V c main_v29) r b) o4.symm)
  · show V c main_v42 (((cfg1.win 0).blk t).view.emb (ix2 p q)) = V c main_v42 (ix2 (⟨t.val * 10000 + p.val, hn⟩ : Fin 100000) q)
    refine congrArg (V c main_v42) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · show V c main_v29 (((cfg1.win 1).blk t).view.emb (ix2 p q)) = V c main_v29 (ix2 (⟨t.val * 10000 + p.val, hn⟩ : Fin 100000) q)
    refine congrArg (V c main_v29) (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * q.val = q.val; omega
  · refine Eq.trans ?_ (hr ⟨t.val * 10000 + p.val, hn⟩)
    show V c main_v12 (((cfg1.win 2).blk t).view.emb (ix2 p (0 : Fin 1))) = V c main_v12 (ix2 (⟨t.val * 10000 + p.val, hn⟩ : Fin 100000) (0 : Fin 1))
    refine congrArg (V c main_v12) (funext fun a => Fin.ext ?_)
    match a with
    | ⟨0, _⟩ => show win1_2.index t (0 : Fin 2) * 10000 + 1 * p.val = t.val * 10000 + p.val; omega
    | ⟨1, _⟩ => show win1_2.index t (1 : Fin 2) * 1 + 1 * 0 = 0; omega
  · refine Eq.trans ?_ (hb q)
    show V c main_v43 (((cfg1.win 3).blk t).view.emb (ix2 (0 : Fin 1) q)) = V c main_v43 (ix2 (0 : Fin 1) q)
    refine congrArg (V c main_v43) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v44).slice (win1_4.rect t)).set ↔ _
  rw [View.set_slice_whole, Rect.mem_set_unit]
  exact Iff.rfl

/-- Every index of the output array is written back by some point: row `n` by point `n / 10000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, -, -, -, -, e8, e9⟩ := idx_facts1 ⟨(i 0).val / 10000, hlt⟩
  have f8 : win1_4.index ⟨(i 0).val / 10000, hlt⟩ (0 : Fin 2) = (i 0).val / 10000 := e8
  refine ⟨⟨(i 0).val / 10000, hlt⟩, flush1_4 _, ?_⟩
  rw [mem_blk1]
  intro a
  match a with
  | ⟨0, _⟩ =>
    show win1_4.index ⟨(i 0).val / 10000, hlt⟩ (0 : Fin 2) * 10000 ≤ (i 0).val
      ∧ (i 0).val < win1_4.index ⟨(i 0).val / 10000, hlt⟩ (0 : Fin 2) * 10000 + 10000
    omega
  | ⟨1, _⟩ =>
    show win1_4.index ⟨(i 0).val / 10000, hlt⟩ (1 : Fin 2) * 64 ≤ (i 1).val
      ∧ (i 1).val < win1_4.index ⟨(i 0).val / 10000, hlt⟩ (1 : Fin 2) * 64 + 64
    omega

/-- The array the region leaves is the epilogue of the arrays it found. -/
theorem arr1 (c : Dev nD) (r : (⟨1, ![100000]⟩ : Shape).Idx → EReal) (b : (⟨1, ![64]⟩ : Shape).Idx → EReal)
    (hr : ∀ n : Fin 100000, V c main_v12 (ix2 n (0 : Fin 1)) = r (ix1 n))
    (hb : ∀ j : Fin 64, V c main_v43 (ix2 (0 : Fin 1) j) = b (ix1 j)) :
    (dat1 (F := Ideal) V c).arrAt 4 cfg1.N = Cert.Spec.fuse (V c main_v42) (V c main_v29) r b :=
  (dat1 (F := Ideal) V c).arrAt_eq_of_cover 4 (Cert.Spec.fuse (V c main_v42) (V c main_v29) r b)
    (fun t _ => flushed1_eq V c r b hr hb t) cover1

/-! ## The second layer's epilogue: region 3 -/

/-- The body's value at row `p`, lane `q` of a block: the aggregate plus the projected row scaled by the column entry of
    row `p`, plus the row entry of lane `q`, clamped below at zero. -/
theorem pay3_apply (x0 x1 : Vec Ideal S10000x64 .f32) (x2 : Vec Ideal S10000x1 .f32) (x3 : Vec Ideal S1x64 .f32)
    (p : Fin 10000) (q : Fin 64) :
    k3_pay1 x0 x1 x2 x3 (ix2 p q)
      = max ((x0 (ix2 p q) + x1 (ix2 p q) * x2 (ix2 p (0 : Fin 1))) + x3 (ix2 (0 : Fin 1) q)) Cert.Spec.z := by
  unfold k3_pay1
  rw [maximumf_apply, addf_apply, addf_apply, mulf_apply, broadcast_apply]
  rw [shapeCast_self, shapeCast_self, shapeCast_self, shapeCast_self]
  rw [Keepdims.broadcastTo_a1_ab_apply, broadcastTo_1b_ab_apply]
  rfl

/-- The same value, with each block entry named by the whole-array entry it is. -/
theorem point3_eq (x0 x1 : Vec Ideal S10000x64 .f32) (x2 : Vec Ideal S10000x1 .f32) (x3 : Vec Ideal S1x64 .f32)
    (a h : (⟨2, ![100000, 64]⟩ : Shape).Idx → EReal) (r : (⟨1, ![100000]⟩ : Shape).Idx → EReal)
    (b : (⟨1, ![64]⟩ : Shape).Idx → EReal) (p : Fin 10000) (q : Fin 64) (n : Fin 100000)
    (h0 : x0 (ix2 p q) = a (ix2 n q)) (h1 : x1 (ix2 p q) = h (ix2 n q))
    (h2 : x2 (ix2 p (0 : Fin 1)) = r (ix1 n)) (h3 : x3 (ix2 (0 : Fin 1) q) = b (ix1 q)) :
    k3_pay1 x0 x1 x2 x3 (ix2 p q) = Cert.Spec.fuse a h r b (ix2 n q) := by
  rw [pay3_apply, h0, h1, h2, h3]
  rfl

/-- The windows' index maps over the grid: at point `t` the row-blocked windows are at block `(t, 0)`, the bias at `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the epilogue of the whole arrays. -/
theorem flushed3_eq (c : Dev nD) (r : (⟨1, ![100000]⟩ : Shape).Idx → EReal) (b : (⟨1, ![64]⟩ : Shape).Idx → EReal)
    (hr : ∀ n : Fin 100000, V c main_v12 (ix2 n (0 : Fin 1)) = r (ix1 n))
    (hb : ∀ j : Fin 64, V c main_v59 (ix2 (0 : Fin 1) j) = b (ix1 j)) (t : Fin cfg3.N) :
    (dat3 (F := Ideal) V c).flushed 4 t
      = ((cfg3.win 4).blk t).view.read (Elt Ideal) (Cert.Spec.fuse (V c main_v58) (V c main_v45) r b) := by
  show (cfg3.win 4).cut (grid3.coords t) ((dat3 (F := Ideal) V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts3 t
  have ht : t.val < 10 := lt_of_lt_of_eq t.isLt N_3
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hq : q.val < 64 := q.isLt
  have hn : t.val * 10000 + p.val < 100000 := by omega
  show k3_pay1 (iblk3 V c 0 t) (iblk3 V c 1 t) (iblk3 V c 2 t) (iblk3 V c 3 t) (ix2 p q)
    = Cert.Spec.fuse (V c main_v58) (V c main_v45) r b (((cfg3.win 4).blk t).view.emb (ix2 p q))
  have o4 : ((cfg3.win 4).blk t).view.emb (ix2 p q) = ix2 (⟨t.val * 10000 + p.val, hn⟩ : Fin 100000) q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  refine (point3_eq _ _ _ _ (V c main_v58) (V c main_v45) r b p q ⟨t.val * 10000 + p.val, hn⟩ ?_ ?_ ?_ ?_).trans
    (congrArg (Cert.Spec.fuse (V c main_v58) (V c main_v45) r b) o4.symm)
  · show V c main_v58 (((cfg3.win 0).blk t).view.emb (ix2 p q)) = V c main_v58 (ix2 (⟨t.val * 10000 + p.val, hn⟩ : Fin 100000) q)
    refine congrArg (V c main_v58) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v45 (((cfg3.win 1).blk t).view.emb (ix2 p q)) = V c main_v45 (ix2 (⟨t.val * 10000 + p.val, hn⟩ : Fin 100000) q)
    refine congrArg (V c main_v45) (funext fun a => Fin.ext ?_)
    match a with
    | ⟨0, _⟩ => show win3_1.index t (0 : Fin 2) * 10000 + 1 * p.val = t.val * 10000 + p.val; omega
    | ⟨1, _⟩ => show win3_1.index t (1 : Fin 2) * 64 + 1 * q.val = q.val; omega
  · refine Eq.trans ?_ (hr ⟨t.val * 10000 + p.val, hn⟩)
    show V c main_v12 (((cfg3.win 2).blk t).view.emb (ix2 p (0 : Fin 1))) = V c main_v12 (ix2 (⟨t.val * 10000 + p.val, hn⟩ : Fin 100000) (0 : Fin 1))
    refine congrArg (V c main_v12) (funext fun a => Fin.ext ?_)
    match a with
    | ⟨0, _⟩ => show win3_2.index t (0 : Fin 2) * 10000 + 1 * p.val = t.val * 10000 + p.val; omega
    | ⟨1, _⟩ => show win3_2.index t (1 : Fin 2) * 1 + 1 * 0 = 0; omega
  · refine Eq.trans ?_ (hb q)
    show V c main_v59 (((cfg3.win 3).blk t).view.emb (ix2 (0 : Fin 1) q)) = V c main_v59 (ix2 (0 : Fin 1) q)
    refine congrArg (V c main_v59) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega

/-- An index of the output array is in point `t`'s block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v60).slice (win3_4.rect t)).set ↔ _
  rw [View.set_slice_whole, Rect.mem_set_unit]
  exact Iff.rfl

/-- Every index of the output array is written back by some point: row `n` by point `n / 10000`. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨-, -, -, -, -, -, -, -, e8, e9⟩ := idx_facts3 ⟨(i 0).val / 10000, hlt⟩
  have f8 : win3_4.index ⟨(i 0).val / 10000, hlt⟩ (0 : Fin 2) = (i 0).val / 10000 := e8
  refine ⟨⟨(i 0).val / 10000, hlt⟩, flush3_4 _, ?_⟩
  rw [mem_blk3]
  intro a
  match a with
  | ⟨0, _⟩ =>
    show win3_4.index ⟨(i 0).val / 10000, hlt⟩ (0 : Fin 2) * 10000 ≤ (i 0).val
      ∧ (i 0).val < win3_4.index ⟨(i 0).val / 10000, hlt⟩ (0 : Fin 2) * 10000 + 10000
    omega
  | ⟨1, _⟩ =>
    show win3_4.index ⟨(i 0).val / 10000, hlt⟩ (1 : Fin 2) * 64 ≤ (i 1).val
      ∧ (i 1).val < win3_4.index ⟨(i 0).val / 10000, hlt⟩ (1 : Fin 2) * 64 + 64
    omega

/-- The array the region leaves is the epilogue of the arrays it found. -/
theorem arr3 (c : Dev nD) (r : (⟨1, ![100000]⟩ : Shape).Idx → EReal) (b : (⟨1, ![64]⟩ : Shape).Idx → EReal)
    (hr : ∀ n : Fin 100000, V c main_v12 (ix2 n (0 : Fin 1)) = r (ix1 n))
    (hb : ∀ j : Fin 64, V c main_v59 (ix2 (0 : Fin 1) j) = b (ix1 j)) :
    (dat3 (F := Ideal) V c).arrAt 4 cfg3.N = Cert.Spec.fuse (V c main_v58) (V c main_v45) r b :=
  (dat3 (F := Ideal) V c).arrAt_eq_of_cover 4 (Cert.Spec.fuse (V c main_v58) (V c main_v45) r b)
    (fun t _ => flushed3_eq V c r b hr hb t) cover3

end Cert.KernelIdeal.FuseK
end
-- ==== Proof.FuseR.lean ====
/-
  The reference's layer epilogue, read index by index: the reciprocal degree is viewed as a column and repeated along
  the rows, the bias as a row repeated down the columns, and the clamp's zero is a scalar repeated everywhere. At an
  index `(n, j)` the three repeats read `r n`, `b j` and the zero word, which is the stage `fuse` of the specification.
-/
import proofs.«401749_j10557029614291_1_alg».proof.Proof.Gen.ReferenceIdeal.Read
import proofs.«401749_j10557029614291_1_alg».proof.Proof.Spec
import Idealize.ShloMosaic.Lib.Pipeline.Value
import Idealize.ShloMosaic.Lib.ValueIdx

noncomputable section
namespace Cert.ReferenceIdeal.FuseR
open Cert.ReferenceIdeal Cert.ReferenceIdeal.Gen Idealize.ShloMosaic Idealize.ShloMosaic.TcCoe Idealize.SL.Sem Idealize.ShloMosaic.StableHlo
open Idealize.ShloMosaic.ValueIdx

/-- The reciprocal degree as a column `[100000, 1]`, repeated to `[100000, 64]`, reads at `(n, j)` the vector at `n`. -/
theorem col_apply (r : FVec Ideal S100000 .f32) (n : Fin 100000) (j : Fin 64) :
    broadcastInDim S100000x64 ![0, 1] bcast_S100000x1_S100000x64_0_1
      (broadcastInDim S100000x1 ![0] bcast_S100000_S100000x1_0 r) (ix2 n j) = r (ix1 n) := by
  refine (broadcastInDim_apply _ bcast_S100000x1_S100000x64_0_1 _ (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])).trans ?_
  exact broadcastInDim_apply _ bcast_S100000_S100000x1_0 r (ix2 n (0 : Fin 1)) (ix1 n) (fun a => match a with
    | ⟨0, _⟩ => by show n.val = if (100000 : Nat) = 1 then 0 else n.val; rw [if_neg (by decide)])

/-- The bias as a row `[1, 64]`, repeated to `[100000, 64]`, reads at `(n, j)` the vector at `j`. -/
theorem row_apply (b : FVec Ideal S64 .f32) (n : Fin 100000) (j : Fin 64) :
    broadcastInDim S100000x64 ![0, 1] bcast_S1x64_S100000x64_0_1
      (broadcastInDim S1x64 ![1] bcast_S64_S1x64_1 b) (ix2 n j) = b (ix1 j) := by
  refine (broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The scalar zero repeated to `[100000, 64]` reads the zero word everywhere. -/
theorem zero_apply (i : S100000x64.Idx) :
    broadcastInDim S100000x64 ![] bcast_S_S100000x64 (constant (F := Ideal) S_ .f32 0x00000000#32) i = Cert.Spec.z :=
  broadcastInDim_apply _ bcast_S_S100000x64 (constant (F := Ideal) S_ .f32 0x00000000#32) i ix0 (fun a => a.elim0)

theorem relu_eq (a h : FVec Ideal S100000x64 .f32) (r : FVec Ideal S100000 .f32) (b : FVec Ideal S64 .f32) :
    maximumf (addf (addf a (mulf h (broadcastInDim S100000x64 ![0, 1] bcast_S100000x1_S100000x64_0_1 (broadcastInDim S100000x1 ![0] bcast_S100000_S100000x1_0 r))))
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = Cert.Spec.fuse a h r b := by
  funext i
  obtain ⟨n, j, rfl⟩ : ∃ (n : Fin 100000) (j : Fin 64), i = ix2 n j := ⟨i 0, i 1, eq_ix2 i⟩
  rw [maximumf_apply, addf_apply, addf_apply, mulf_apply, zero_apply, col_apply, row_apply]
  rfl

end Cert.ReferenceIdeal.FuseR
end
-- ==== Proof.PoolK.lean ====
/-
  The read-out. Row `g` of the result is the sum of the node rows whose graph id is the word `g`. The grid walks the
  nodes in ten blocks of 10000 rows; at each point the block's one-hot matrix (entry `(k, g)` is `1` when node `k`'s id
  is `g`, else `0`) is contracted over the rows against the block's features, and the product is added to one resident
  [128, 64] block, zeroed at the first point and written back after the last. So after point `n` the block holds, at
  `(g, j)`, the sum over the nodes of blocks `0 … n` of the feature `(m, j)` where the id of `m` is `g`; after the last
  point that is the sum over every node.
-/
import proofs.«401749_j10557029614291_1_alg».proof.Proof.Gen.KernelIdeal.Frame
import proofs.«401749_j10557029614291_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section
namespace Cert.KernelIdeal.PoolK
open Cert.KernelIdeal Cert.KernelIdeal.Gen Idealize.ShloMosaic Idealize.ShloMosaic.TcCoe Idealize.ShloMosaic.ValueIdx Idealize.SL.Sem
open Idealize.ShloMosaic.Pipeline (Dat)

/-- The zero offsets, however spelt. -/
theorem hz : (![0, 0] : Fin 2 → Nat) = fun _ => 0 := funext fun a => by fin_cases a <;> rfl

/-- At a later point the body leaves, over what the buffer held, the second store's payload of the two input blocks. -/
theorem out_B (c : Dev nD) (i : grid4.Coords) (a1 : Memref sig .tc .vmem S10000x64 .f32) (h1 : a1.IsWhole)
    (a2 : Memref sig .tc .vmem S10000x1 .i32) (h2 : a2.IsWhole) (a3 : Memref sig .tc .vmem S128x64 .f32) (h3 : a3.IsWhole)
    (hc : ¬cond4_0 i) (x0 : Vec Ideal S10000x64 .f32) (x1 : Vec Ideal S10000x1 .i32) (xo : Vec Ideal S128x64 .f32) :
    out4_B_2 (F := Ideal) c i a1 h1 a2 h2 a3 h3 hc x0 x1 xo = k4_pay2 x1 x0 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  simp only [View.readAt_eq_ld, h1.read_unread, h2.read_unread, h3.read_unread, View.ld_unit_zero (S := S10000x64) hz,
    View.ld_unit_zero (S := S10000x1) hz, View.ld_unit_zero (S := S128x64) hz]

/-- At the first point the body stores the zero block, reads it back, and leaves the second store's payload over it. -/
theorem out_A (c : Dev nD) (i : grid4.Coords) (a1 : Memref sig .tc .vmem S10000x64 .f32) (h1 : a1.IsWhole)
    (a2 : Memref sig .tc .vmem S10000x1 .i32) (h2 : a2.IsWhole) (a3 : Memref sig .tc .vmem S128x64 .f32) (h3 : a3.IsWhole)
    (hc : cond4_0 i) (x0 : Vec Ideal S10000x64 .f32) (x1 : Vec Ideal S10000x1 .i32) :
    out4_A_2 (F := Ideal) c i a1 h1 a2 h2 a3 h3 hc x0 x1 = k4_pay2 x1 x0 (k4_pay1 (F := Ideal)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x64) hz, View.readCov_unit_zero (S := S128x64) _ hz]
  simp only [View.readAt_eq_ld, h1.read_unread, h2.read_unread, View.ld_unit_zero (S := S10000x64) hz,
    View.ld_unit_zero (S := S10000x1) hz]

/-- The block product contracts axis 0 of both operands: at output `(g, j)` and contraction position `k` it reads the
    one-hot matrix at `(k, g)` and the features at `(k, j)`. -/
theorem lhs_D4_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem lhs_D4_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
theorem rhs_D4_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem rhs_D4_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- The one-hot operand of the block product at row `k`, column `g`: `1` when node `k`'s graph id is the word `g`, else `0`. -/
theorem hot_apply (x1 : Vec Ideal S10000x1 .i32) (k : Fin 10000) (g : Fin 128) :
    (truncf .bf16 (sitofp (F := Ideal) .f32 (extui 32 (cmpi .eq
      (broadcastTo S10000x128 (shapeCast S10000x1 x1 shapeCasts_S10000x1_S10000x1) broadcasts_S10000x1_S10000x128)
      (broadcastTo S10000x128 (iota .tc S1x128 32 [1] iota_S1x128_d1_w32) broadcasts_S1x128_S10000x128)) natLt_1_32)) bitsLt_bf16_f32
        : FVec Ideal S10000x128 .bf16) (ix2 k g)
      = if x1 (ix2 k (0 : Fin 1)) = BitVec.ofNat 32 g.val then (1 : EReal) else 0 := by
  rw [truncf_apply, sitofp_apply, extui_apply]
  show FloatOps.sitofp (F := Ideal) .f32 ((IntOp.cmpi .eq _ _).setWidth 32) = _
  rw [broadcastTo_apply _ broadcasts_S10000x1_S10000x128 (ix2 k g) (ix2 k (0 : Fin 1)) (fun a => by
        match a with
        | ⟨0, _⟩ => rfl
        | ⟨1, _⟩ => rfl),
    broadcastTo_apply _ broadcasts_S1x128_S10000x128 (ix2 k g) (ix2 (0 : Fin 1) g) (fun a => by
        match a with
        | ⟨0, _⟩ => rfl
        | ⟨1, _⟩ => rfl),
    shapeCast_self, iota_single_apply]
  show FloatOps.sitofp (F := Ideal) .f32 (BitVec.setWidth 32 (IntOp.cmpi .eq (x1 (ix2 k (0 : Fin 1))) (BitVec.ofNat 32 g.val))) = _
  by_cases h : x1 (ix2 k (0 : Fin 1)) = BitVec.ofNat 32 g.val
  · rw [if_pos h, h]
    have e : IntOp.cmpi .eq (BitVec.ofNat 32 g.val) (BitVec.ofNat 32 g.val) = 1#1 := by simp [IntOp.cmpi]
    rw [e]
    show (((BitVec.setWidth 32 1#1).toInt : ℝ) : EReal) = 1
    rw [show (BitVec.setWidth 32 1#1).toInt = 1 from by decide]
    simp
  · rw [if_neg h]
    have e : IntOp.cmpi .eq (x1 (ix2 k (0 : Fin 1))) (BitVec.ofNat 32 g.val) = 0#1 := by
      show BitVec.ofBool (x1 (ix2 k (0 : Fin 1)) == BitVec.ofNat 32 g.val) = 0#1
      rw [show (x1 (ix2 k (0 : Fin 1)) == BitVec.ofNat 32 g.val) = false from beq_eq_false_iff_ne.mpr h]
      rfl
    rw [e]
    show (((BitVec.setWidth 32 0#1).toInt : ℝ) : EReal) = 0
    rw [show (BitVec.setWidth 32 0#1).toInt = 0 from by decide]
    simp

/-- The second store's payload at row `g`, column `j`: what the buffer held there, plus the rows of the block whose id is `g`. -/
theorem pay2_apply (x1 : Vec Ideal S10000x1 .i32) (x0 : Vec Ideal S10000x64 .f32) (xo : Vec Ideal S128x64 .f32)
    (g : Fin 128) (j : Fin 64) :
    k4_pay2 (F := Ideal) x1 x0 xo (ix2 g j)
      = xo (ix2 g j) + ∑ k : Fin 10000, if x1 (ix2 k (0 : Fin 1)) = BitVec.ofNat 32 g.val then x0 (ix2 k j) else 0 := by
  unfold k4_pay2
  dsimp only
  rw [addf_apply, shapeCast_self]
  congr 1
  simp only [matmul]
  rw [Ideal.matmul_constant_zero_apply, ← Equiv.sum_comp (contrEquiv1 dot_S10000x128_S10000x64_S128x64_0_0_1_1_n_n 10000 rfl rfl).symm]
  refine Finset.sum_congr rfl fun k _ => ?_
  have hk := contrEquiv1_symm_val dot_S10000x128_S10000x64_S128x64_0_0_1_1_n_n 10000 rfl rfl k
  have el : dot_S10000x128_S10000x64_S128x64_0_0_1_1_n_n.lhsIdx (ix2 g j) ((contrEquiv1 dot_S10000x128_S10000x64_S128x64_0_0_1_1_n_n 10000 rfl rfl).symm k) = ix2 k g := funext fun a => Fin.ext (by
    match a with
    | ⟨0, _⟩ => exact (lhs_D4_0 _ _).trans hk
    | ⟨1, _⟩ => exact lhs_D4_1 _ _)
  have er : dot_S10000x128_S10000x64_S128x64_0_0_1_1_n_n.rhsIdx (ix2 g j) ((contrEquiv1 dot_S10000x128_S10000x64_S128x64_0_0_1_1_n_n 10000 rfl rfl).symm k) = ix2 k j := funext fun a => Fin.ext (by
    match a with
    | ⟨0, _⟩ => exact (rhs_D4_0 _ _).trans hk
    | ⟨1, _⟩ => exact rhs_D4_1 _ _)
  rw [el, er, hot_apply, truncf_apply, shapeCast_self]
  split_ifs <;> simp

section Sums
variable {M : Type*} [AddCommMonoid M]

/-- The sum of `f` over the nodes before block `t` (blocks of 10000 consecutive nodes). -/
def below (f : Fin 100000 → M) (t : ℕ) : M := ∑ m : Fin 100000, if m.val < 10000 * t then f m else 0

/-- No node is before block `0`. -/
theorem below_zero (f : Fin 100000 → M) : below f 0 = 0 := by
  unfold below
  exact Finset.sum_eq_zero fun m _ => if_neg (by omega)

/-- Every node is before block `10`. -/
theorem below_ten (f : Fin 100000 → M) : below f 10 = ∑ m, f m := by
  unfold below
  exact Finset.sum_congr rfl fun m _ => if_pos (by have := m.isLt; omega)

/-- The nodes before block `t + 1` are those before block `t` and the 10000 nodes of block `t`. -/
theorem below_succ (f : Fin 100000 → M) (t : ℕ) (ht : t < 10) :
    below f (t + 1) = below f t + ∑ k : Fin 10000, f ⟨10000 * t + k.val, by have := k.isLt; omega⟩ := by
  unfold below
  let e : Fin 10000 ↪ Fin 100000 := ⟨fun k => ⟨10000 * t + k.val, by have := k.isLt; omega⟩, fun a b h => by
    have := congrArg Fin.val h
    exact Fin.ext (by dsimp only at this; omega)⟩
  have hsplit : ∀ m : Fin 100000, (if m.val < 10000 * (t + 1) then f m else 0)
      = (if m.val < 10000 * t then f m else 0) + (if 10000 * t ≤ m.val ∧ m.val < 10000 * (t + 1) then f m else 0) := by
    intro m
    by_cases h1 : m.val < 10000 * t
    · rw [if_pos (by omega), if_pos h1, if_neg (by omega), add_zero]
    · by_cases h2 : m.val < 10000 * (t + 1)
      · rw [if_pos h2, if_neg h1, if_pos ⟨by omega, h2⟩, zero_add]
      · rw [if_neg h2, if_neg h1, if_neg (by omega), add_zero]
  rw [Finset.sum_congr rfl (fun m _ => hsplit m), Finset.sum_add_distrib]
  refine congrArg (HAdd.hAdd _) ?_
  rw [← Finset.sum_filter]
  have hset : Finset.univ.filter (fun m : Fin 100000 => 10000 * t ≤ m.val ∧ m.val < 10000 * (t + 1)) = Finset.univ.map e := by
    ext m
    simp only [Finset.mem_filter, Finset.mem_univ, true_and, Finset.mem_map]
    constructor
    · rintro ⟨h1, h2⟩
      exact ⟨⟨m.val - 10000 * t, by omega⟩, Fin.ext (by show 10000 * t + (m.val - 10000 * t) = m.val; omega)⟩
    · rintro ⟨k, rfl⟩
      have := k.isLt
      show 10000 * t ≤ 10000 * t + k.val ∧ 10000 * t + k.val < 10000 * (t + 1)
      omega
  rw [hset, Finset.sum_map]
  rfl

end Sums

variable (V : (c : Dev nD) → (b : Ref sig .tc) → Buf (Elt Ideal) ((c : Thread nD τ).loc b))

/-- The feature block and the id block at a point. -/
abbrev hblk (c : Dev nD) (t : Fin cfg4.N) : Vec Ideal S10000x64 .f32 := iblk4 V c 0 t
abbrev bblk (c : Dev nD) (t : Fin cfg4.N) : Vec Ideal S10000x1 .i32 := iblk4 V c 1 t

/-- Both input windows step one block of rows per point and stay at column block `0`. -/
theorem idx_facts : ∀ t : Fin cfg4.N, win4_0.index t 0 = t.val ∧ win4_0.index t 1 = 0 ∧ win4_1.index t 0 = t.val ∧ win4_1.index t 1 = 0 :=
  (by decide +kernel : ∀ t : Fin grid4.N, win4_0.index t 0 = t.val ∧ win4_0.index t 1 = 0 ∧ win4_1.index t 0 = t.val ∧ win4_1.index t 1 = 0)

/-- Row `k` of the feature block at point `t` is row `10000 t + k` of the feature array. -/
theorem hblk_apply (c : Dev nD) (t : Fin cfg4.N) (k : Fin 10000) (j : Fin 64) (hm : 10000 * t.val + k.val < 100000) :
    hblk V c t (ix2 k j) = V c main_v60 (ix2 (⟨10000 * t.val + k.val, hm⟩ : Fin 100000) j) := by
  unfold hblk iblk4
  rw [View.read_apply]
  show V c main_v60 _ = V c main_v60 _
  congr 1
  funext a
  apply Fin.ext
  match a with
  | ⟨0, _⟩ => show win4_0.index t 0 * 10000 + 1 * k.val = 10000 * t.val + k.val; rw [(idx_facts t).1]; omega
  | ⟨1, _⟩ => show win4_0.index t 1 * 64 + 1 * j.val = j.val; rw [(idx_facts t).2.1]; omega

/-- Row `k` of the id block at point `t` is row `10000 t + k` of the id column. -/
theorem bblk_apply (c : Dev nD) (t : Fin cfg4.N) (k : Fin 10000) (hm : 10000 * t.val + k.val < 100000) :
    bblk V c t (ix2 k (0 : Fin 1)) = V c main_v61 (ix2 (⟨10000 * t.val + k.val, hm⟩ : Fin 100000) (0 : Fin 1)) := by
  unfold bblk iblk4
  rw [View.read_apply]
  show V c main_v61 _ = V c main_v61 _
  congr 1
  funext a
  apply Fin.ext
  match a with
  | ⟨0, _⟩ => show win4_1.index t 0 * 10000 + 1 * k.val = 10000 * t.val + k.val; rw [(idx_facts t).2.2.1]; omega
  | ⟨1, _⟩ => show win4_1.index t 1 * 1 + 1 * 0 = 0; rw [(idx_facts t).2.2.2]

/-- What node `m` adds to row `g`, column `j` of the read-out. -/
def addend (c : Dev nD) (bt : (⟨1, ![100000]⟩ : Shape).Idx → BitVec 32) (g : Fin 128) (j : Fin 64) (m : Fin 100000) : EReal :=
  if bt (ix1 m) = BitVec.ofNat 32 g.val then V c main_v60 (ix2 m j) else 0

/-- The block product at point `t` adds the addends of the nodes `10000 t … 10000 t + 9999`. -/
theorem block_sum (c : Dev nD) (bt : (⟨1, ![100000]⟩ : Shape).Idx → BitVec 32)
    (hbt : ∀ n : Fin 100000, V c main_v61 (ix2 n (0 : Fin 1)) = bt (ix1 n)) (g : Fin 128) (j : Fin 64)
    (t : Fin cfg4.N) (ht : t.val < 10) :
    (∑ k : Fin 10000, if bblk V c t (ix2 k (0 : Fin 1)) = BitVec.ofNat 32 g.val then hblk V c t (ix2 k j) else 0)
      = ∑ k : Fin 10000, addend V c bt g j ⟨10000 * t.val + k.val, by have := k.isLt; omega⟩ := by
  refine Finset.sum_congr rfl fun k _ => ?_
  have hm : 10000 * t.val + k.val < 100000 := by have := k.isLt; omega
  rw [bblk_apply V c t k hm, hblk_apply V c t k j hm, hbt]
  rfl

/-- After point `n` the output's buffer holds, at row `g`, column `j`, the addends of the nodes of blocks `0 … n`. -/
theorem outsAt_eq (c : Dev nD) (bt : (⟨1, ![100000]⟩ : Shape).Idx → BitVec 32)
    (hbt : ∀ n : Fin 100000, V c main_v61 (ix2 n (0 : Fin 1)) = bt (ix1 n)) (g : Fin 128) (j : Fin 64) :
    ∀ (n : ℕ) (hn : n < cfg4.N), outsAt4 (F := Ideal) V c n hn (ix2 g j) = below (addend V c bt g j) (n + 1)
  | 0, hn => by
    rw [outsAt4_A (F := Ideal) V c ⟨0, hn⟩ (Nat.zero_mod 10)]
    refine (congrFun (out_A c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) ((hcond4_0 ⟨0, hn⟩).mpr (Nat.zero_mod 10)) (hblk V c ⟨0, hn⟩) (bblk V c ⟨0, hn⟩)) (ix2 g j)).trans ?_
    rw [pay2_apply, below_succ _ 0 (by omega), below_zero, block_sum V c bt hbt g j ⟨0, hn⟩ (by dsimp only; omega)]
    refine congrArg (· + _) ?_
    show Ideal.ofBits .f32 0x00000000#32 = 0
    exact Ideal.ofBits_zero_f32
  | n + 1, hn => by
    have hN : cfg4.N = 10 := N_4
    have hB : ¬(⟨n + 1, hn⟩ : Fin cfg4.N).val % 10 = 0 := by dsimp only; omega
    rw [outsAt4_B (F := Ideal) V c ⟨n + 1, hn⟩ hB]
    refine (congrFun (out_B c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (fun h => hB ((hcond4_0 ⟨n + 1, hn⟩).mp h)) (hblk V c ⟨n + 1, hn⟩) (bblk V c ⟨n + 1, hn⟩)
      (outsAt4 (F := Ideal) V c n (Nat.lt_of_succ_lt hn))) (ix2 g j)).trans ?_
    rw [pay2_apply, outsAt_eq c bt hbt g j n (Nat.lt_of_succ_lt hn), below_succ _ (n + 1) (by omega),
      block_sum V c bt hbt g j ⟨n + 1, hn⟩ (by dsimp only; omega)]

/-- The one write-back, after the last point, writes the whole array: it ends holding the read-out of the features by the ids. -/
theorem arr4 (c : Dev nD) (bt : (⟨1, ![100000]⟩ : Shape).Idx → BitVec 32)
    (hbt : ∀ n : Fin 100000, V c main_v61 (ix2 n (0 : Fin 1)) = bt (ix1 n)) :
    (dat4 (F := Ideal) V c).arrAt 2 cfg4.N = Cert.Spec.pool (V c main_v60) bt := by
  have hN : cfg4.N = 10 := N_4
  have hval : outsAt4 (F := Ideal) V c t4_9.val t4_9.isLt = Cert.Spec.pool (V c main_v60) bt := funext fun i => by
    obtain ⟨g, j, rfl⟩ : ∃ (g : Fin 128) (j : Fin 64), i = ix2 g j := ⟨i 0, i 1, eq_ix2 i⟩
    refine (outsAt_eq V c bt hbt g j 9 t4_9.isLt).trans ?_
    rw [below_ten]
    rfl
  refine (dat4 (F := Ideal) V c).arrAt_eq_of_cover 2 (Cert.Spec.pool (V c main_v60) bt) ?_ ?_
  · intro t hf
    have h9 : t.val = 9 := by have := (flush4_2 t).mp hf; have := t.isLt; omega
    obtain rfl : t = t4_9 := Fin.ext h9
    show (cfg4.win 2).cut (grid4.coords t4_9) ((dat4 (F := Ideal) V c).after 2 t4_9) = _
    rw [after4_2, hval]
    have hz' : (fun a => win4_2.index t4_9 a * main_v62.ty.shape.size a) = fun _ => 0 := funext fun a => by fin_cases a <;> decide
    exact (Memref.read_access_unit_zero (Elt Ideal) main_v62 hz' (fun a => by rw [congrFun hz' a]; simp) (Cert.Spec.pool (V c main_v60) bt)).symm
  · intro i
    refine ⟨t4_9, (flush4_2 t4_9).mpr rfl, ?_⟩
    show i ∈ ((View.whole main_v62).slice (win4_2.rect t4_9)).set
    rw [View.set_slice_whole, Rect.mem_set_unit]
    intro a
    have h0 : (i 0 : Nat) < 128 := (i 0).isLt
    have h1 : (i 1 : Nat) < 64 := (i 1).isLt
    match a with
    | ⟨0, _⟩ => show win4_2.index t4_9 0 * win4_2.size 0 ≤ (i 0 : Nat) ∧ (i 0 : Nat) < win4_2.index t4_9 0 * win4_2.size 0 + win4_2.xsize (grid4.coords t4_9) 0
                rw [show win4_2.index t4_9 0 * win4_2.size 0 = 0 from by decide +kernel, show win4_2.xsize (grid4.coords t4_9) 0 = 128 from by decide +kernel]; omega
    | ⟨1, _⟩ => show win4_2.index t4_9 1 * win4_2.size 1 ≤ (i 1 : Nat) ∧ (i 1 : Nat) < win4_2.index t4_9 1 * win4_2.size 1 + win4_2.xsize (grid4.coords t4_9) 1
                rw [show win4_2.index t4_9 1 * win4_2.size 1 = 0 from by decide +kernel, show win4_2.xsize (grid4.coords t4_9) 1 = 64 from by decide +kernel]; omega

end Cert.KernelIdeal.PoolK
end
-- ==== Proof.PoolR.lean ====
/-
  The reference's read-out: a scatter-add of the node rows into a zero `[128, 64]` array, row `n` landing on the
  row its graph id names. Over the extended reals the scatter-add is the exact sum of the updates that land on each
  element, and an update whose index is no row of the operand is dropped; so element `(g, j)` is the sum of column
  `j` over the nodes whose id is the word `g`: the pool of the shared specification.
-/
import proofs.«401749_j10557029614291_1_alg».proof.Proof.Gen.ReferenceIdeal.Read
import proofs.«401749_j10557029614291_1_alg».proof.Proof.Spec
import Idealize.ShloMosaic.Lib.ValueIdx
import Idealize.ShloMosaic.Lib.Pipeline.Value
import Idealize.ShloMosaic.PureOps.Ideal

noncomputable section
namespace Cert.ReferenceIdeal.PoolR
open Cert.ReferenceIdeal Cert.ReferenceIdeal.Gen Idealize.ShloMosaic Idealize.ShloMosaic.TcCoe Idealize.SL.Sem Idealize.ShloMosaic.StableHlo
open Idealize.ShloMosaic.ValueIdx

/-- The read-out's scatter dimension numbers. -/
abbrev poolDims : ScatterDims S128x64 S100000x1 S100000x64 := scatter_S128x64_S100000x1_S100000x64_1_0_0_1

/-- Update row `n` reads its start index at the scatter indices' `(n, 0)`, whichever column of the row it is. -/
theorem siIdx_eq (n : Fin 100000) (j' : Fin 64) (c : Fin poolDims.scatterDimsToOperandDims.length) :
    poolDims.siIdx (ix2 n j') c = ix2 n 0 := by
  funext b
  match b with
  | ⟨0, _⟩ => rfl
  | ⟨1, _⟩ => exact Fin.ext (by have := c.isLt; show c.val = 0; change c.val < 1 at this; omega)

/-- On the operand's row axis the window starts at the index word of row `n`, read signed. -/
theorem start_0 (n : Fin 100000) (j' : Fin 64) (idx : IVec S100000x1 32) :
    poolDims.start (ix2 n j') idx 0 = (idx (ix2 n 0)).toInt := by
  unfold ScatterDims.start
  rw [dif_pos (show (0 : Fin S128x64.rank) ∈ poolDims.scatterDimsToOperandDims by decide), siIdx_eq]

/-- On the operand's column axis the window starts at zero. -/
theorem start_1 (n : Fin 100000) (j' : Fin 64) (idx : IVec S100000x1 32) :
    poolDims.start (ix2 n j') idx 1 = 0 := by
  unfold ScatterDims.start
  rw [dif_neg (show ¬ (1 : Fin S128x64.rank) ∈ poolDims.scatterDimsToOperandDims by decide)]

/-- The row axis is an inserted one: the window coordinate there is zero. -/
theorem window_0 (n : Fin 100000) (j' : Fin 64) :
    poolDims.window (ix2 n j') 0 = 0 := by
  unfold ScatterDims.window
  rw [dif_neg (show ¬ (0 : Fin S128x64.rank) ∈ poolDims.sKept by decide)]

/-- On the column axis the window coordinate is the update's column. -/
theorem window_1 (n : Fin 100000) (j' : Fin 64) :
    poolDims.window (ix2 n j') 1 = j'.val := by
  unfold ScatterDims.window
  rw [dif_pos (show (1 : Fin S128x64.rank) ∈ poolDims.sKept by decide)]
  rfl

/-- An update `(n, j')` lands on the element `(g, j)` exactly when its row's index word, read signed, is `g`
    and its column is `j`; an index word that is no row of the operand lands nowhere. -/
theorem resultIdx?_eq_some_iff (n : Fin 100000) (j' j : Fin 64) (g : Fin 128) (idx : IVec S100000x1 32) :
    poolDims.resultIdx? (ix2 n j') idx = some (ix2 g j) ↔ (idx (ix2 n 0)).toInt = (g.val : Int) ∧ j' = j := by
  unfold ScatterDims.resultIdx?
  constructor
  · intro h
    split at h
    · rename_i hb
      have h' := Option.some.inj h
      have h0 : (poolDims.start (ix2 n j') idx 0 + ↑(poolDims.window (ix2 n j') 0)).toNat = g.val :=
        congrArg Fin.val (congrFun h' 0)
      have h1 : (poolDims.start (ix2 n j') idx 1 + ↑(poolDims.window (ix2 n j') 1)).toNat = j.val :=
        congrArg Fin.val (congrFun h' 1)
      have b0 := (hb 0).1
      rw [start_0, window_0] at h0 b0
      rw [start_1, window_1] at h1
      exact ⟨by omega, Fin.ext (by omega)⟩
    · exact absurd h (by simp)
  · rintro ⟨ht, rfl⟩
    have hb : ∀ a : Fin S128x64.rank,
        0 ≤ poolDims.start (ix2 n j') idx a + ↑(poolDims.window (ix2 n j') a) ∧
          poolDims.start (ix2 n j') idx a + ↑(poolDims.window (ix2 n j') a) < ↑(S128x64.size a) := by
      intro a
      match a with
      | ⟨0, _⟩ =>
        show 0 ≤ poolDims.start (ix2 n j') idx 0 + ↑(poolDims.window (ix2 n j') 0) ∧
          poolDims.start (ix2 n j') idx 0 + ↑(poolDims.window (ix2 n j') 0) < ((128 : Nat) : Int)
        rw [start_0, window_0, ht]
        have := g.isLt
        omega
      | ⟨1, _⟩ =>
        show 0 ≤ poolDims.start (ix2 n j') idx 1 + ↑(poolDims.window (ix2 n j') 1) ∧
          poolDims.start (ix2 n j') idx 1 + ↑(poolDims.window (ix2 n j') 1) < ((64 : Nat) : Int)
        rw [start_1, window_1]
        have := j'.isLt
        omega
    rw [dif_pos hb]
    refine congrArg some (funext fun a => ?_)
    match a with
    | ⟨0, _⟩ =>
      exact Fin.ext (by
        show (poolDims.start (ix2 n j') idx 0 + ↑(poolDims.window (ix2 n j') 0)).toNat = g.val
        rw [start_0, window_0, ht]; omega)
    | ⟨1, _⟩ =>
      exact Fin.ext (by
        show (poolDims.start (ix2 n j') idx 1 + ↑(poolDims.window (ix2 n j') 1)).toNat = j'.val
        rw [start_1, window_1]; omega)

/-- A 32-bit word reads, signed, as a row number `g < 128` exactly when it is the word `g`. -/
theorem toInt_eq_iff (w : BitVec 32) (g : Fin 128) : w.toInt = (g.val : Int) ↔ w = BitVec.ofNat 32 g.val := by
  have hg := g.isLt
  have hw := w.isLt
  rw [BitVec.toInt_eq_toNat_cond]
  constructor
  · intro h
    apply BitVec.eq_of_toNat_eq
    rw [BitVec.toNat_ofNat]
    split at h <;> omega
  · intro h
    have e : w.toNat = g.val := by rw [h, BitVec.toNat_ofNat]; omega
    rw [if_pos (by omega)]
    omega

/-- The zero array the scatter accumulates into, at an element. -/
theorem zeros_apply (i : S128x64.Idx) :
    broadcastInDim S128x64 ![] bcast_S_S128x64 (constant (F := Ideal) S_ .f32 0x00000000#32) i = 0 := by
  rw [broadcastInDim_apply _ bcast_S_S128x64 (constant (F := Ideal) S_ .f32 0x00000000#32) i ix0 (fun a => a.elim0),
    constant_apply, Ideal.ofBits_zero_f32]

/-- The scatter indices are the graph ids as a column: the word at `(n, 0)` is node `n`'s id. -/
theorem ids_apply (bt : IVec S100000 32) (n : Fin 100000) :
    broadcastInDim S100000x1 ![0] bcast_S100000_S100000x1_0 bt (ix2 n 0) = bt (ix1 n) :=
  broadcastInDim_apply _ bcast_S100000_S100000x1_0 bt (ix2 n 0) (ix1 n) (fun a => match a with
    | ⟨0, _⟩ => by show n.val = if (100000 : Nat) = 1 then 0 else n.val; rw [if_neg (by decide)])

/-- The scatter-add into zeros, at the element `(g, j)`: the sum of column `j` over the nodes whose id is the word `g`. -/
theorem scatter_pool_at (h : FVec Ideal S100000x64 .f32) (bt : IVec S100000 32) (g : Fin 128) (j : Fin 64) :
    Host.scatterAdd (F := Ideal) poolDims
        (broadcastInDim S128x64 ![] bcast_S_S128x64 (constant (F := Ideal) S_ .f32 0x00000000#32))
        (broadcastInDim S100000x1 ![0] bcast_S100000_S100000x1_0 bt) h (ix2 g j)
      = ∑ n : Fin 100000, if bt (ix1 n) = BitVec.ofNat 32 g.val then h (ix2 n j) else 0 := by
  show Ideal.hostScatterAdd poolDims _ _ h (ix2 g j) = _
  unfold Ideal.hostScatterAdd
  rw [zeros_apply, zero_add, Finset.sum_filter, sum_idx2]
  refine Finset.sum_congr rfl fun n _ => ?_
  by_cases hw : bt (ix1 n) = BitVec.ofNat 32 g.val
  · have ht : (broadcastInDim S100000x1 ![0] bcast_S100000_S100000x1_0 bt (ix2 n 0)).toInt = (g.val : Int) := by
      rw [ids_apply]; exact (toInt_eq_iff _ g).2 hw
    rw [if_pos hw, Finset.sum_eq_single j]
    · exact if_pos ((resultIdx?_eq_some_iff n j j g _).2 ⟨ht, rfl⟩)
    · intro j' _ hne
      exact if_neg fun hc => hne ((resultIdx?_eq_some_iff n j' j g _).1 hc).2
    · intro hj
      exact absurd (Finset.mem_univ j) hj
  · rw [if_neg hw]
    refine Finset.sum_eq_zero fun j' _ => if_neg fun hc => hw ?_
    have ht := ((resultIdx?_eq_some_iff n j' j g _).1 hc).1
    rw [ids_apply] at ht
    exact (toInt_eq_iff _ g).1 ht

/-- The reference's read-out (a scatter-add of the node rows into a zero array at the graph ids) is the pool. -/
theorem scatter_pool_eq (h : FVec Ideal S100000x64 .f32) (bt : IVec S100000 32) :
    Host.scatterAdd (F := Ideal) scatter_S128x64_S100000x1_S100000x64_1_0_0_1
        (broadcastInDim S128x64 ![] bcast_S_S128x64 (constant (F := Ideal) S_ .f32 0x00000000#32))
        (broadcastInDim S100000x1 ![0] bcast_S100000_S100000x1_0 bt) h
    = Cert.Spec.pool h bt := by
  funext i
  rw [eq_ix2 i]
  exact scatter_pool_at h bt (i 0) (i 1)

end Cert.ReferenceIdeal.PoolR
end
-- ==== Proof.KChain.lean ====
/-
  The kernel program's result, buffer by buffer, as the reference's own stage functions of the nine arguments.
  The program alternates stretches of host operations with five kernel regions. At each boundary the contents of the
  buffers the next item reads are named: the edge lists, reciprocal degrees and edge weights after the first stretch;
  each projection `x · W` after its region (the kernel's block-wise matrix product is the host's `dot_general`, both
  the plain sum over the contracted axis); each layer's output `max (agg + h · (1 / deg) + b, 0)` after its
  epilogue region; the per-graph sums after the read-out region (the one-hot matrix product is the host's
  scatter-add: a node is added to the row of its graph id and to no row if the id is no graph's). The host operations
  between the regions are the reference's own, so each stretch is read off and closed by unfolding the
  reference's stage functions.
-/
import proofs.«401749_j10557029614291_1_alg».proof.Proof.Gen.KernelIdeal.Frame
import proofs.«401749_j10557029614291_1_alg».proof.Proof.Gen.ReferenceIdeal.Read
import proofs.«401749_j10557029614291_1_alg».proof.Proof.Spec
import proofs.«401749_j10557029614291_1_alg».proof.Proof.LibKeepdims
import proofs.«401749_j10557029614291_1_alg».proof.Proof.MatmulK
import proofs.«401749_j10557029614291_1_alg».proof.Proof.MatmulR
import proofs.«401749_j10557029614291_1_alg».proof.Proof.FuseK
import proofs.«401749_j10557029614291_1_alg».proof.Proof.FuseR
import proofs.«401749_j10557029614291_1_alg».proof.Proof.PoolK
import proofs.«401749_j10557029614291_1_alg».proof.Proof.PoolR
import Idealize.ShloMosaic.Lib.StableHlo.Run
import Idealize.ShloMosaic.Lib.ValueLayout

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-- A buffer no operation of a host stretch writes is as the stretch found it. -/
local macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The reference computes the degrees and the edge weights once per layer: the two copies are one function -/

theorem rdeg_copy (e : (⟨Cert.ReferenceIdeal.S2x1600000, .i32⟩ : BufTy).Contents (Elt Ideal)) :
    val_main_v87 (F := Ideal) e = val_main_v41 (F := Ideal) e := rfl

/-! ## After the first host stretch: the edge lists, the reciprocal degrees, the edge weights -/

theorem W1_arg0 : W1 m ρ c (Proc.devRef .tc main_arg0) = (m ((c : Thread nD τ).loc main_arg0)) := by
  refine Eq.trans (b := W0 m ρ c (Proc.devRef .tc main_arg0)) ?_ rfl
  host_skip hostOps0
theorem W1_arg3 : W1 m ρ c (Proc.devRef .tc main_arg3) = (m ((c : Thread nD τ).loc main_arg3)) := by
  refine Eq.trans (b := W0 m ρ c (Proc.devRef .tc main_arg3)) ?_ rfl
  host_skip hostOps0
theorem W1_arg4 : W1 m ρ c (Proc.devRef .tc main_arg4) = (m ((c : Thread nD τ).loc main_arg4)) := by
  refine Eq.trans (b := W0 m ρ c (Proc.devRef .tc main_arg4)) ?_ rfl
  host_skip hostOps0
theorem W1_arg5 : W1 m ρ c (Proc.devRef .tc main_arg5) = (m ((c : Thread nD τ).loc main_arg5)) := by
  refine Eq.trans (b := W0 m ρ c (Proc.devRef .tc main_arg5)) ?_ rfl
  host_skip hostOps0

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem W1_v28 : W1 m ρ c (Proc.devRef .tc main_v28) = val_main_v26 (F := Ideal) (m ((c : Thread nD τ).loc main_arg1)) := by
  show StableHlo.after hostOps0 (W0 m ρ c) (Proc.devRef .tc main_v28) = _
  after_results_simp
  rfl
theorem W1_v12 : W1 m ρ c (Proc.devRef .tc main_v12)
    = shapeCast S100000x1 (val_main_v41 (F := Ideal) (m ((c : Thread nD τ).loc main_arg1))) shapeCasts_S100000_S100000x1 := by
  show StableHlo.after hostOps0 (W0 m ρ c) (Proc.devRef .tc main_v12) = _
  after_results_simp
  rfl
/-- The reciprocal-degree column read at row `n`. -/
theorem W1_v12_apply (n : Fin 100000) :
    W1 m ρ c (Proc.devRef .tc main_v12) (ix2 n (0 : Fin 1)) = val_main_v41 (F := Ideal) (m ((c : Thread nD τ).loc main_arg1)) (ix1 n) := by
  rw [W1_v12 m ρ c]
  exact Idealize.ShloMosaic.Keepdims.shapeCast_a_a1_apply _ _ n 0

/-! ## Region 0: the first projection -/

theorem W2_v29 : W2 m ρ c (Proc.devRef .tc main_v29) = val_main_v4 (F := Ideal) (m ((c : Thread nD τ).loc main_arg0)) (m ((c : Thread nD τ).loc main_arg3)) := by
  refine (W2_arr m ρ c 2).trans ?_
  refine (MatmulK.arr0 (V1 m ρ) c).trans ?_
  rw [show V1 m ρ c main_arg0 = (m ((c : Thread nD τ).loc main_arg0)) from W1_arg0 m ρ c, show V1 m ρ c main_arg3 = (m ((c : Thread nD τ).loc main_arg3)) from W1_arg3 m ρ c]
  exact (Cert.ReferenceIdeal.MatmulR.dot128_eq _ _).symm
theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_v28 : W2 m ρ c (Proc.devRef .tc main_v28) = val_main_v26 (F := Ideal) (m ((c : Thread nD τ).loc main_arg1)) :=
  (W2_of_ne m ρ c main_v28 (by decide)).trans (W1_v28 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)

/-! ## The second host stretch: the first layer's aggregation along the edges -/

theorem W3_v42 : W3 m ρ c (Proc.devRef .tc main_v42) = val_main_v39 (F := Ideal) (m ((c : Thread nD τ).loc main_arg0)) (m ((c : Thread nD τ).loc main_arg1)) (m ((c : Thread nD τ).loc main_arg3)) := by
  have h1 := W2_v1 m ρ c; have h3 := W2_v3 m ρ c; have h28 := W2_v28 m ρ c; have h29 := W2_v29 m ρ c
  show StableHlo.after hostOps1 (W2 m ρ c) (Proc.devRef .tc main_v42) = _
  generalize W2 m ρ c = W at h1 h3 h28 h29 ⊢
  after_results_simp
  rw [h1, h3, h28, h29]
  rfl
theorem W3_v29 : W3 m ρ c (Proc.devRef .tc main_v29) = val_main_v4 (F := Ideal) (m ((c : Thread nD τ).loc main_arg0)) (m ((c : Thread nD τ).loc main_arg3)) := by
  refine Eq.trans ?_ (W2_v29 m ρ c)
  host_skip hostOps1
theorem W3_v12_apply (n : Fin 100000) :
    V3 m ρ c main_v12 (ix2 n (0 : Fin 1)) = val_main_v41 (F := Ideal) (m ((c : Thread nD τ).loc main_arg1)) (ix1 n) := by
  have e : W3 m ρ c (Proc.devRef .tc main_v12) = W1 m ρ c (Proc.devRef .tc main_v12) := by
    refine Eq.trans (b := W2 m ρ c (Proc.devRef .tc main_v12)) ?_ (W2_of_ne m ρ c main_v12 (by decide))
    host_skip hostOps1
  show W3 m ρ c (Proc.devRef .tc main_v12) (ix2 n (0 : Fin 1)) = _
  rw [e]; exact W1_v12_apply m ρ c n
theorem W3_v43_apply (j : Fin 64) : V3 m ρ c main_v43 (ix2 (0 : Fin 1) j) = (m ((c : Thread nD τ).loc main_arg4)) (ix1 j) := by
  have e : W3 m ρ c (Proc.devRef .tc main_v43) = shapeCast S1x64 ((m ((c : Thread nD τ).loc main_arg4))) shapeCasts_S64_S1x64 := by
    have h4 := W2_arg4 m ρ c
    show StableHlo.after hostOps1 (W2 m ρ c) (Proc.devRef .tc main_v43) = _
    generalize W2 m ρ c = W at h4 ⊢
    after_results_simp
    rw [h4]
    rfl
  show W3 m ρ c (Proc.devRef .tc main_v43) (ix2 (0 : Fin 1) j) = _
  rw [e]; exact ValueIdx.shapeCast_a_1a_apply _ _ 0 j

/-! ## Region 1: the first layer's epilogue -/

theorem W4_v44 : W4 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) := by
  refine (W4_arr m ρ c 4).trans ?_
  refine (FuseK.arr1 (V3 m ρ) c (val_main_v41 (F := Ideal) (m ((c : Thread nD τ).loc main_arg1))) (m ((c : Thread nD τ).loc main_arg4)) (W3_v12_apply m ρ c) (W3_v43_apply m ρ c)).trans ?_
  rw [show V3 m ρ c main_v42 = _ from W3_v42 m ρ c, show V3 m ρ c main_v29 = _ from W3_v29 m ρ c]
  exact (Cert.ReferenceIdeal.FuseR.relu_eq _ _ _ _).symm

/-! ## Region 2: the second projection -/

theorem W4_arg5 : W4 m ρ c (Proc.devRef .tc main_arg5) = (m ((c : Thread nD τ).loc main_arg5)) := by
  refine (W4_of_ne m ρ c main_arg5 (by decide)).trans ?_
  refine Eq.trans ?_ (W2_arg5 m ρ c)
  host_skip hostOps1
theorem W5_v45 : W5 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  refine (MatmulK.arr2 (V4 m ρ) c).trans ?_
  rw [show V4 m ρ c main_v44 = _ from W4_v44 m ρ c, show V4 m ρ c main_arg5 = (m ((c : Thread nD τ).loc main_arg5)) from W4_arg5 m ρ c]
  exact (Cert.ReferenceIdeal.MatmulR.dot64_eq _ _).symm

/-- A buffer the first host stretch wrote and neither the second stretch nor regions 1 and 2 touch. -/
theorem W5_v1 : W5 m ρ c (Proc.devRef .tc main_v1) = val_main_v1 (F := Ideal) (m ((c : Thread nD τ).loc main_arg1)) := by
  refine (W5_of_ne m ρ c main_v1 (by decide)).trans ?_
  refine (W4_of_ne m ρ c main_v1 (by decide)).trans ?_
  refine Eq.trans ?_ (W2_v1 m ρ c)
  host_skip hostOps1
theorem W5_v3 : W5 m ρ c (Proc.devRef .tc main_v3) = val_main_v3 (F := Ideal) (m ((c : Thread nD τ).loc main_arg1)) := by
  refine (W5_of_ne m ρ c main_v3 (by decide)).trans ?_
  refine (W4_of_ne m ρ c main_v3 (by decide)).trans ?_
  refine Eq.trans ?_ (W2_v3 m ρ c)
  host_skip hostOps1
theorem W5_v28 : W5 m ρ c (Proc.devRef .tc main_v28) = val_main_v26 (F := Ideal) (m ((c : Thread nD τ).loc main_arg1)) := by
  refine (W5_of_ne m ρ c main_v28 (by decide)).trans ?_
  refine (W4_of_ne m ρ c main_v28 (by decide)).trans ?_
  refine Eq.trans ?_ (W2_v28 m ρ c)
  host_skip hostOps1

/-! ## The third host stretch: the second layer's aggregation along the edges -/

theorem W6_v58 : W6 m ρ c (Proc.devRef .tc main_v58) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h1 := W5_v1 m ρ c; have h3 := W5_v3 m ρ c; have h28 := W5_v28 m ρ c; have h45 := W5_v45 m ρ c
  show StableHlo.after hostOps3 (W5 m ρ c) (Proc.devRef .tc main_v58) = _
  generalize W5 m ρ c = W at h1 h3 h28 h45 ⊢
  after_results_simp
  rw [h1, h3, h28, h45]
  rfl
theorem W6_v45 : W6 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine Eq.trans ?_ (W5_v45 m ρ c)
  host_skip hostOps3
theorem W6_v12_apply (n : Fin 100000) :
    V6 m ρ c main_v12 (ix2 n (0 : Fin 1)) = val_main_v87 (F := Ideal) (m ((c : Thread nD τ).loc main_arg1)) (ix1 n) := by
  have e : W6 m ρ c (Proc.devRef .tc main_v12) = W3 m ρ c (Proc.devRef .tc main_v12) := by
    refine Eq.trans (b := W5 m ρ c (Proc.devRef .tc main_v12)) ?_ ?_
    · host_skip hostOps3
    refine (W5_of_ne m ρ c main_v12 (by decide)).trans ?_
    exact (W4_arr m ρ c 2).trans (((dat1 (V3 m ρ) c).arrAt_in 2 rfl _).trans (A_eq1 (V3 m ρ) c 2))
  show W6 m ρ c (Proc.devRef .tc main_v12) (ix2 n (0 : Fin 1)) = _
  rw [e, rdeg_copy]; exact W3_v12_apply m ρ c n
theorem W5_arg6 : W5 m ρ c (Proc.devRef .tc main_arg6) = (m ((c : Thread nD τ).loc main_arg6)) := by
  refine (W5_of_ne m ρ c main_arg6 (by decide)).trans ?_
  refine (W4_of_ne m ρ c main_arg6 (by decide)).trans ?_
  refine Eq.trans (b := W2 m ρ c (Proc.devRef .tc main_arg6)) ?_ ?_
  · host_skip hostOps1
  refine (W2_of_ne m ρ c main_arg6 (by decide)).trans ?_
  refine Eq.trans (b := W0 m ρ c (Proc.devRef .tc main_arg6)) ?_ rfl
  host_skip hostOps0
theorem W6_v59_apply (j : Fin 64) : V6 m ρ c main_v59 (ix2 (0 : Fin 1) j) = (m ((c : Thread nD τ).loc main_arg6)) (ix1 j) := by
  have e : W6 m ρ c (Proc.devRef .tc main_v59) = shapeCast S1x64 ((m ((c : Thread nD τ).loc main_arg6))) shapeCasts_S64_S1x64 := by
    have h6 := W5_arg6 m ρ c
    show StableHlo.after hostOps3 (W5 m ρ c) (Proc.devRef .tc main_v59) = _
    generalize W5 m ρ c = W at h6 ⊢
    after_results_simp
    rw [h6]
    rfl
  show W6 m ρ c (Proc.devRef .tc main_v59) (ix2 (0 : Fin 1) j) = _
  rw [e]; exact ValueIdx.shapeCast_a_1a_apply _ _ 0 j

/-! ## Region 3: the second layer's epilogue -/

theorem W7_v60 : W7 m ρ c (Proc.devRef .tc main_v60) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ?_
  refine (FuseK.arr3 (V6 m ρ) c (val_main_v87 (F := Ideal) (m ((c : Thread nD τ).loc main_arg1))) (m ((c : Thread nD τ).loc main_arg6)) (W6_v12_apply m ρ c) (W6_v59_apply m ρ c)).trans ?_
  rw [show V6 m ρ c main_v58 = _ from W6_v58 m ρ c, show V6 m ρ c main_v45 = _ from W6_v45 m ρ c]
  exact (Cert.ReferenceIdeal.FuseR.relu_eq _ _ _ _).symm

/-! ## The graph ids as a column, and region 4: the read-out -/

theorem W9_arg2 : W9 m ρ c (Proc.devRef .tc main_arg2) = (m ((c : Thread nD τ).loc main_arg2)) := by
  refine Eq.trans (b := W10 m ρ c (Proc.devRef .tc main_arg2)) (Eq.symm ?_) (W10_main_arg2 m ρ c)
  host_skip hostOps5
theorem W9_arg7 : W9 m ρ c (Proc.devRef .tc main_arg7) = (m ((c : Thread nD τ).loc main_arg7)) := by
  refine Eq.trans (b := W10 m ρ c (Proc.devRef .tc main_arg7)) (Eq.symm ?_) (W10_main_arg7 m ρ c)
  host_skip hostOps5
theorem W9_arg8 : W9 m ρ c (Proc.devRef .tc main_arg8) = (m ((c : Thread nD τ).loc main_arg8)) := by
  refine Eq.trans (b := W10 m ρ c (Proc.devRef .tc main_arg8)) (Eq.symm ?_) (W10_main_arg8 m ρ c)
  host_skip hostOps5
theorem W7_arg2 : W7 m ρ c (Proc.devRef .tc main_arg2) = (m ((c : Thread nD τ).loc main_arg2)) := by
  refine Eq.trans (b := W9 m ρ c (Proc.devRef .tc main_arg2)) (Eq.symm ?_) (W9_arg2 m ρ c)
  refine (W9_of_ne m ρ c main_arg2 (by decide)).trans ?_
  host_skip hostOps4
theorem W8_v61_apply (n : Fin 100000) : V8 m ρ c main_v61 (ix2 n (0 : Fin 1)) = (m ((c : Thread nD τ).loc main_arg2)) (ix1 n) := by
  have e : W8 m ρ c (Proc.devRef .tc main_v61) = shapeCast S100000x1 ((m ((c : Thread nD τ).loc main_arg2))) shapeCasts_S100000_S100000x1 := by
    have h2 := W7_arg2 m ρ c
    show StableHlo.after hostOps4 (W7 m ρ c) (Proc.devRef .tc main_v61) = _
    generalize W7 m ρ c = W at h2 ⊢
    after_results_simp
    rw [h2]
    rfl
  show W8 m ρ c (Proc.devRef .tc main_v61) (ix2 n (0 : Fin 1)) = _
  rw [e]; exact Idealize.ShloMosaic.Keepdims.shapeCast_a_a1_apply _ _ n 0
theorem W8_v60 : W8 m ρ c (Proc.devRef .tc main_v60) = val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine Eq.trans ?_ (W7_v60 m ρ c)
  host_skip hostOps4
theorem W9_v62 : W9 m ρ c (Proc.devRef .tc main_v62) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ?_
  refine (PoolK.arr4 (V8 m ρ) c (m ((c : Thread nD τ).loc main_arg2)) (W8_v61_apply m ρ c)).trans ?_
  rw [show V8 m ρ c main_v60 = _ from W8_v60 m ρ c]
  exact (Cert.ReferenceIdeal.PoolR.scatter_pool_eq _ _).symm

/-! ## The last host stretch: the mean over each graph's nodes and the output layer -/

/-- THE RESULT: what the kernel's program leaves in its result buffer is the reference's own composed function of the
    nine argument arrays. -/
theorem W10_v75 : W10 m ρ c (Proc.devRef .tc main_v75) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h62 := W9_v62 m ρ c; have h2 := W9_arg2 m ρ c; have h7 := W9_arg7 m ρ c; have h8 := W9_arg8 m ρ c
  show StableHlo.after hostOps5 (W9 m ρ c) (Proc.devRef .tc main_v75) = _
  generalize W9 m ρ c = W at h62 h2 h7 h8 ⊢
  after_results_simp
  rw [h62, h2, h7, h8]
  rfl

end Cert.KernelIdeal.Chain
end
-- ==== Proof.lean ====
/-
  A two-layer graph convolution with a mean read-out, computed by five kernels among host code, against the same
  network written with whole-array operations.  Over the extended reals the two agree entry by entry:
  * each projection is the sum over the contracted axis on both sides (the kernel's cast of its operands to a
    narrower float format is the identity there);
  * the aggregation along the edges, the degrees and the edge weights are the same host operations on both sides;
  * each layer ends in `max ((agg + h * (1 / deg)) + b, 0)`, the same association on both sides;
  * the read-out adds node `n`'s row to the row of its graph id: as a product with the one-hot matrix of the ids,
    accumulated over ten blocks of nodes, or as a scatter-add; `0 * x = 0` and addition is a commutative monoid on
    the extended reals, so the two sums agree, and an id that is no graph's contributes to neither;
  * the mean and the output layer are again the same host operations.
  No step needs the inputs finite. The three frames are the programs' runs with the results dropped; the
  idealization rewrote nothing, so `preserves` is trivial.
-/
import proofs.«401749_j10557029614291_1_alg».proof.Defs
import proofs.«401749_j10557029614291_1_alg».proof.Proof.Gen.Kernel
import proofs.«401749_j10557029614291_1_alg».proof.Proof.Gen.Kernel.Frame
import proofs.«401749_j10557029614291_1_alg».proof.Proof.Gen.KernelIdeal
import proofs.«401749_j10557029614291_1_alg».proof.Proof.Gen.KernelIdeal.Frame
import proofs.«401749_j10557029614291_1_alg».proof.Proof.Gen.ReferenceIdeal
import proofs.«401749_j10557029614291_1_alg».proof.Proof.Gen.ReferenceIdeal.Run
import proofs.«401749_j10557029614291_1_alg».proof.Proof.Gen.ReferenceIdeal.Read
import proofs.«401749_j10557029614291_1_alg».proof.Proof.Gen.Pre_finite_inputs
import proofs.«401749_j10557029614291_1_alg».proof.Proof.KRunAll
import proofs.«401749_j10557029614291_1_alg».proof.Proof.KChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at ONE function of the argument arrays: the reference's composed stages. The
    kernel program's run ends there by the chain through its regions, the reference's by its own run; the arguments
    agree by hypothesis. -/
theorem algebraic : Cert.algebraic_KernelIdeal_ReferenceIdeal := by
  intro m ρ m' ρ' _ hagree
  refine ⟨fun c => Cert.ReferenceIdeal.Read.val_main_v111 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.W10_v75 m ρ c), (h c).2⟩)
      (Cert.KernelIdeal.GenP.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v111_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
